-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x4096x256 .f32) (main_arg1 : FVec F S4x4096x256 .f32) (main_arg2 : FVec F S256x256 .f32) (main_arg3 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x256 : Shape := ⟨2, ![1, 256]⟩
abbrev S1x1024x256 : Shape := ⟨3, ![1, 1024, 256]⟩
abbrev S1024x1 : Shape := ⟨2, ![1024, 1]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S1x256, .f32⟩
  | .hbm, ⟨6, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S1x256, .f32⟩
  | .local _ .vmem, ⟨6, _⟩ => ⟨S1x1024x256, .f32⟩
  | .local _ .vmem, ⟨7, _⟩ => ⟨S1x1024x256, .f32⟩
  | .local _ .vmem, ⟨8, _⟩ => ⟨S1024x1, .f32⟩
  | .local _ .vmem, ⟨9, _⟩ => ⟨S1024x1, .f32⟩
  | .local _ .vmem, ⟨10, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v53 : BitVec 1 := Scalar.cmpi .eq arg2 c3_i32
  let v54 : BitVec 32 := Scalar.extui v53
  let c0_i32_25 : BitVec 32 := 0#32
  let v55 : BitVec 1 := Scalar.cmpi .ne v54 c0_i32_25
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S256x256_S256x256_1_0 : S256x256.Transposes [1, 0] S256x256
  shapeCasts_S256_S1x256 : S256.ShapeCasts S1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S1024x256 : S1x256.Broadcasts S1024x256
  shapeCasts_S1024x256_S1x1024x256 : S1024x256.ShapeCasts S1x1024x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x4096x256.size a
  hwx0_1 : ∀ i : grid0.Coords, EltTy.bits .f32 = 32 ∨ (Rect.block (s := S4x4096x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S4x4096x256.size a
  hwx0_4 : ∀ i : grid0.Coords, EltTy.bits .f32 = 32 ∨ (Rect.block (s := S4x4096x256) S1x1024x256.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S256, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x256, .f32⟩
  | .hbm, ⟨20, _⟩ => ⟨S4x4096x256, .f32⟩
  | .hbm, ⟨21, _⟩ => ⟨S1x1x256, .f32⟩
  | .hbm, ⟨22, _⟩ => ⟨S4x4096x256, .f32⟩
  | .hbm, ⟨23, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]
  dot_S4x4096x256_S256x256_S4x4096x256_2_1_01_0_n_n_wf : DotDims.WF S4x4096x256 S256x256 S4x4096x256 [2] [1] [0, 1] [0] [] []

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf
def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf

class Facts : Prop extends Facts₀ where

variable [Facts]
-- ==== Proof.Steps.lean ====
/-
  One key block's step of the kernel's body, as three functions of the query block, the key block and what the three
  scratch buffers held before it, and the last block's output; each is the body's own arithmetic, composed.
-/
import proofs.«427663_j22179211116668_3_alg».proof.Proof.Gen.KernelIdeal.Skeleton
import Idealize.ShloMosaic.Lib.ValueIdx

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen

variable {F : FTy → Type} [FloatOps F]

/-- One key block's step on the running maximum: the old one against the block's row maxima of the scores. -/
def stepM (x0 x1 : Vec F S1x1024x256 .f32) (mo : Vec F S1024x1 .f32) : Vec F S1024x1 .f32 :=
  k0_pay3 (k0_pay11 x0 x1 mo)

/-- … on the running sum of exponentials: the old one rescaled to the new maximum, plus the block's. -/
def stepL (x0 x1 : Vec F S1x1024x256 .f32) (mo lo : Vec F S1024x1 .f32) : Vec F S1024x1 .f32 :=
  k0_pay1 (k0_pay14 x0 x1 mo mo lo) (k0_pay15 x0 x1 mo)

/-- … on the running weighted sum of the keys' rows: the old one rescaled, plus the block's exponentials times its rows. -/
def stepA (x0 x1 : Vec F S1x1024x256 .f32) (mo : Vec F S1024x1 .f32) (ao : Vec F S1024x256 .f32) : Vec F S1024x256 .f32 :=
  k0_pay2 (k0_pay9 x1) (k0_pay12 x0 x1 mo mo) (k0_pay13 x0 x1 mo) ao

/-- The last block's output: the weighted sum over the sum of exponentials, through the linear layer. -/
def outF (ao : Vec F S1024x256 .f32) (lo : Vec F S1024x1 .f32) (w : Vec F S256x256 .f32) (bb : Vec F S1x256 .f32) : Vec F S1x1024x256 .f32 :=
  k0_pay4 ao lo w bb

end Cert.KernelIdeal.Attn

end
-- ==== Proof.Pieces.lean ====
/-
  What each control case of the body leaves in the three scratch buffers and, in the last case, in the output block:
  the stores the run found, read back, are the step functions of the blocks and of what the buffers held before.
-/
import proofs.«427663_j22179211116668_3_alg».proof.Proof.Gen.KernelIdeal.Frame
import proofs.«427663_j22179211116668_3_alg».proof.Proof.Steps
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen

variable {F : FTy → Type} [FloatOps F]

/-- The zero offsets of a rank-two block, however they are spelt. -/
private theorem zeros2 : (![0, 0] : Fin 2 → Nat) = fun _ => 0 := funext fun a => by fin_cases a <;> rfl

/-- The zero offsets of a rank-three block. -/
private theorem zeros3 : (![0, 0, 0] : Fin 3 → Nat) = fun _ => 0 := funext fun a => by fin_cases a <;> rfl

/-- First key block, running maximum: the buffer is reset to minus infinity, read back, and the block's step on that is
    stored over it; the later store covers the buffer, so it alone is what is left. -/
theorem sout_A_0 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond0_0 i) (hc1 : ¬cond0_1 i) (x0 x1 : Vec F S1x1024x256 .f32) (x2 : Vec F S256x256 .f32) (x3 : Vec F S1x256 .f32) :
    sout0_A_0 c i arg3 harg3 arg4 harg4 arg5 harg5 arg6 harg6 arg7 harg7 arg8 harg8 arg9 harg9 arg10 harg10 hc0 hc1 x0 x1 x2 x3 = stepM x0 x1 k0_pay5 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) zeros2]
  unfold stepM
  simp only [View.readAt_eq_ld, harg3.read_unread, harg4.read_unread, View.ld_unit_zero (S := S1x1024x256) zeros3, View.readCov_unit_zero (S := S1024x1) _ zeros2]

/-- First key block, running sum of exponentials: reset to zero, read back, the step on the two reset values stored over it. -/
theorem sout_A_1 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond0_0 i) (hc1 : ¬cond0_1 i) (x0 x1 : Vec F S1x1024x256 .f32) (x2 : Vec F S256x256 .f32) (x3 : Vec F S1x256 .f32) :
    sout0_A_1 c i arg3 harg3 arg4 harg4 arg5 harg5 arg6 harg6 arg7 harg7 arg8 harg8 arg9 harg9 arg10 harg10 hc0 hc1 x0 x1 x2 x3 = stepL x0 x1 k0_pay5 k0_pay6 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) zeros2]
  unfold stepL
  simp only [View.readAt_eq_ld, harg3.read_unread, harg4.read_unread, View.ld_unit_zero (S := S1x1024x256) zeros3, View.readCov_unit_zero (S := S1024x1) _ zeros2]

/-- First key block, running weighted sum: reset to zero, read back, the step on the reset values stored over it. -/
theorem sout_A_2 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond0_0 i) (hc1 : ¬cond0_1 i) (x0 x1 : Vec F S1x1024x256 .f32) (x2 : Vec F S256x256 .f32) (x3 : Vec F S1x256 .f32) :
    sout0_A_2 c i arg3 harg3 arg4 harg4 arg5 harg5 arg6 harg6 arg7 harg7 arg8 harg8 arg9 harg9 arg10 harg10 hc0 hc1 x0 x1 x2 x3 = stepA x0 x1 k0_pay5 k0_pay7 := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x256) zeros2]
  unfold stepA
  simp only [View.readAt_eq_ld, harg3.read_unread, harg4.read_unread, View.ld_unit_zero (S := S1x1024x256) zeros3, View.readCov_unit_zero (S := S1024x1) _ zeros2, View.readCov_unit_zero (S := S1024x256) _ zeros2]

/-- A middle key block, running maximum: one store covers the buffer; its payload reads the two input blocks and what the
    buffer held, each through the whole-buffer rectangle, which reads the contents. -/
theorem sout_B_0 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : ¬cond0_1 i) (x0 x1 : Vec F S1x1024x256 .f32) (x2 : Vec F S256x256 .f32) (x3 : Vec F S1x256 .f32) (xs0 xs1 : Vec F S1024x1 .f32) (xs2 : Vec F S1024x256 .f32) :
    sout0_B_0 c i arg3 harg3 arg4 harg4 arg5 harg5 arg6 harg6 arg7 harg7 arg8 harg8 arg9 harg9 arg10 harg10 hc0 hc1 x0 x1 x2 x3 xs0 xs1 xs2 = stepM x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero zeros2]
  unfold stepM
  simp only [View.readAt_eq_ld, harg3.read_unread, harg4.read_unread, harg8.read_unread, View.ld_unit_zero (S := S1x1024x256) zeros3, View.ld_unit_zero (S := S1024x1) zeros2]

/-- A middle key block, running sum of exponentials: one covering store, of the step on what the two buffers held. -/
theorem sout_B_1 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : ¬cond0_1 i) (x0 x1 : Vec F S1x1024x256 .f32) (x2 : Vec F S256x256 .f32) (x3 : Vec F S1x256 .f32) (xs0 xs1 : Vec F S1024x1 .f32) (xs2 : Vec F S1024x256 .f32) :
    sout0_B_1 c i arg3 harg3 arg4 harg4 arg5 harg5 arg6 harg6 arg7 harg7 arg8 harg8 arg9 harg9 arg10 harg10 hc0 hc1 x0 x1 x2 x3 xs0 xs1 xs2 = stepL x0 x1 xs0 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero zeros2]
  unfold stepL
  simp only [View.readAt_eq_ld, harg3.read_unread, harg4.read_unread, harg8.read_unread, harg9.read_unread, View.ld_unit_zero (S := S1x1024x256) zeros3, View.ld_unit_zero (S := S1024x1) zeros2]

/-- A middle key block, running weighted sum: one covering store, of the step on the old maximum and the old weighted sum. -/
theorem sout_B_2 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : ¬cond0_1 i) (x0 x1 : Vec F S1x1024x256 .f32) (x2 : Vec F S256x256 .f32) (x3 : Vec F S1x256 .f32) (xs0 xs1 : Vec F S1024x1 .f32) (xs2 : Vec F S1024x256 .f32) :
    sout0_B_2 c i arg3 harg3 arg4 harg4 arg5 harg5 arg6 harg6 arg7 harg7 arg8 harg8 arg9 harg9 arg10 harg10 hc0 hc1 x0 x1 x2 x3 xs0 xs1 xs2 = stepA x0 x1 xs0 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero zeros2]
  unfold stepA
  simp only [View.readAt_eq_ld, harg3.read_unread, harg4.read_unread, harg8.read_unread, harg10.read_unread, View.ld_unit_zero (S := S1x1024x256) zeros3, View.ld_unit_zero (S := S1024x1) zeros2, View.ld_unit_zero (S := S1024x256) zeros2]

/-- The last key block updates the running maximum as a middle block does. -/
theorem sout_C_0 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i) (x0 x1 : Vec F S1x1024x256 .f32) (x2 : Vec F S256x256 .f32) (x3 : Vec F S1x256 .f32) (xs0 xs1 : Vec F S1024x1 .f32) (xs2 : Vec F S1024x256 .f32) :
    sout0_C_0 c i arg3 harg3 arg4 harg4 arg5 harg5 arg6 harg6 arg7 harg7 arg8 harg8 arg9 harg9 arg10 harg10 hc0 hc1 x0 x1 x2 x3 xs0 xs1 xs2 = stepM x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros2]
  unfold stepM
  simp only [View.readAt_eq_ld, harg3.read_unread, harg4.read_unread, harg8.read_unread, View.ld_unit_zero (S := S1x1024x256) zeros3, View.ld_unit_zero (S := S1024x1) zeros2]

/-- The last key block updates the running sum of exponentials as a middle block does. -/
theorem sout_C_1 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i) (x0 x1 : Vec F S1x1024x256 .f32) (x2 : Vec F S256x256 .f32) (x3 : Vec F S1x256 .f32) (xs0 xs1 : Vec F S1024x1 .f32) (xs2 : Vec F S1024x256 .f32) :
    sout0_C_1 c i arg3 harg3 arg4 harg4 arg5 harg5 arg6 harg6 arg7 harg7 arg8 harg8 arg9 harg9 arg10 harg10 hc0 hc1 x0 x1 x2 x3 xs0 xs1 xs2 = stepL x0 x1 xs0 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros2]
  unfold stepL
  simp only [View.readAt_eq_ld, harg3.read_unread, harg4.read_unread, harg8.read_unread, harg9.read_unread, View.ld_unit_zero (S := S1x1024x256) zeros3, View.ld_unit_zero (S := S1024x1) zeros2]

/-- The last key block updates the running weighted sum as a middle block does. -/
theorem sout_C_2 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i) (x0 x1 : Vec F S1x1024x256 .f32) (x2 : Vec F S256x256 .f32) (x3 : Vec F S1x256 .f32) (xs0 xs1 : Vec F S1024x1 .f32) (xs2 : Vec F S1024x256 .f32) :
    sout0_C_2 c i arg3 harg3 arg4 harg4 arg5 harg5 arg6 harg6 arg7 harg7 arg8 harg8 arg9 harg9 arg10 harg10 hc0 hc1 x0 x1 x2 x3 xs0 xs1 xs2 = stepA x0 x1 xs0 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros2]
  unfold stepA
  simp only [View.readAt_eq_ld, harg3.read_unread, harg4.read_unread, harg8.read_unread, harg10.read_unread, View.ld_unit_zero (S := S1x1024x256) zeros3, View.ld_unit_zero (S := S1024x1) zeros2, View.ld_unit_zero (S := S1024x256) zeros2]

/-- The last key block's output: its one covering store's payload reads the weighted sum and the sum of exponentials AFTER
    this block's stores into them (a read of one covering store is its payload), so it is the output function of this block's steps. -/
theorem out_C_4 (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i) (x0 x1 : Vec F S1x1024x256 .f32) (x2 : Vec F S256x256 .f32) (x3 : Vec F S1x256 .f32) (xs0 xs1 : Vec F S1024x1 .f32) (xs2 : Vec F S1024x256 .f32) :
    out0_C_4 c i arg3 harg3 arg4 harg4 arg5 harg5 arg6 harg6 arg7 harg7 arg8 harg8 arg9 harg9 arg10 harg10 hc0 hc1 x0 x1 x2 x3 xs0 xs1 xs2 = outF (stepA x0 x1 xs0 xs2) (stepL x0 x1 xs0 xs1) x2 x3 := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros3]
  unfold outF stepA stepL
  simp only [View.readAt_eq_ld, harg3.read_unread, harg4.read_unread, harg5.read_unread, harg6.read_unread, harg8.read_unread, harg9.read_unread, harg10.read_unread, View.ld_unit_zero (S := S1x1024x256) zeros3, View.ld_unit_zero (S := S1024x1) zeros2, View.ld_unit_zero (S := S1024x256) zeros2, View.ld_unit_zero (S := S256x256) zeros2, View.ld_unit_zero (S := S1x256) zeros2, View.readCov_unit_zero (S := S1024x1) _ zeros2, View.readCov_unit_zero (S := S1024x256) _ zeros2]

end Cert.KernelIdeal.Attn

end
-- ==== Proof.Spec.lean ====
/-
  The specification. For a batch `b`, a query row `n` and an output feature `e`:

      out b n e = (∑ d, avg b n d * W e d) + bias e,
      avg b n d = (∑ j, exp (s b n j) * x2 b j d) / (∑ j, exp (s b n j)),      s b n j = ∑ d, x b n d * x2 b j d,

  the softmax over the keys `j` of the scores `s`, applied to the rows of `x2`, then the linear layer. It is written
  with NO maximum subtracted inside the exponentials: over the real numbers a softmax-weighted average does not depend
  on that shift, and both programs are compared with this form. The arrays' entries are read as real numbers
  (`EReal.toReal`); the statements that use `G` assume every entry is one.

  Also here: what one block of keys contributes to a row's two sums, and the form in which the kernel carries the
  partial sums between blocks — a shift `c r` per row and the sums so far multiplied by `exp (-c r)`.
-/
import Idealize.ShloMosaic.PureOps.Ideal
import Idealize.ShloMosaic.Lib.ValueIdx
import Mathlib.Analysis.SpecialFunctions.Exp

noncomputable section

open scoped BigOperators

namespace Cert.Attn

open Idealize.ShloMosaic Idealize.ShloMosaic.ValueIdx

abbrev SX : Shape := ⟨3, ![4, 4096, 256]⟩
abbrev SW : Shape := ⟨2, ![256, 256]⟩
abbrev SB : Shape := ⟨1, ![256]⟩
abbrev SBlk : Shape := ⟨3, ![1, 1024, 256]⟩
abbrev SCol : Shape := ⟨2, ![1024, 1]⟩
abbrev SAcc : Shape := ⟨2, ![1024, 256]⟩
abbrev SBias : Shape := ⟨2, ![1, 256]⟩

/-- Every entry of the array is a real number. -/
def AllReal {s : Shape} (x : s.Idx → EReal) : Prop := ∀ i, ∃ r : ℝ, x i = (r : EReal)

theorem AllReal.eq {s : Shape} {x : s.Idx → EReal} (h : AllReal x) (i : s.Idx) : x i = ((x i).toReal : EReal) := by
  obtain ⟨r, hr⟩ := h i
  rw [hr, EReal.toReal_coe]

/-! ## The specification over real arrays -/

/-- The score of query row `n` against key `j`, in batch `b`. -/
def score (xr x2r : Fin 4 → Fin 4096 → Fin 256 → ℝ) (b : Fin 4) (n j : Fin 4096) : ℝ :=
  ∑ d : Fin 256, xr b n d * x2r b j d

/-- The softmax-weighted average of the rows of `x2`, feature `d`. -/
def softavg (xr x2r : Fin 4 → Fin 4096 → Fin 256 → ℝ) (b : Fin 4) (n : Fin 4096) (d : Fin 256) : ℝ :=
  (∑ j : Fin 4096, Real.exp (score xr x2r b n j) * x2r b j d) / (∑ j : Fin 4096, Real.exp (score xr x2r b n j))

/-- The linear layer on the average: `avg · Wᵀ + bias`. -/
def outR (xr x2r : Fin 4 → Fin 4096 → Fin 256 → ℝ) (Wr : Fin 256 → Fin 256 → ℝ) (br : Fin 256 → ℝ)
    (b : Fin 4) (n : Fin 4096) (e : Fin 256) : ℝ :=
  (∑ d : Fin 256, softavg xr x2r b n d * Wr e d) + br e

/-- The entries of an array of extended reals, read as real numbers. -/
def re3 (x : SX.Idx → EReal) : Fin 4 → Fin 4096 → Fin 256 → ℝ := fun b n d => (x (ix3 b n d)).toReal
def re2 (W : SW.Idx → EReal) : Fin 256 → Fin 256 → ℝ := fun e d => (W (ix2 e d)).toReal
def re1 (bb : SB.Idx → EReal) : Fin 256 → ℝ := fun e => (bb (ix1 e)).toReal

/-- THE RESULT, as one function of the four argument arrays. -/
def G (x x2 : SX.Idx → EReal) (W : SW.Idx → EReal) (bb : SB.Idx → EReal) : SX.Idx → EReal :=
  fun i => ((outR (re3 x) (re3 x2) (re2 W) (re1 bb) (i 0) (i 1) (i 2) : ℝ) : EReal)

/-! ## One block of 1024 keys against one block of 1024 query rows -/

/-- Scores of the query block's row `r` against the key block's row `jj`. -/
def blkScore (xq kk : Fin 1024 → Fin 256 → ℝ) (r jj : Fin 1024) : ℝ := ∑ d : Fin 256, xq r d * kk jj d

/-- What the key block adds to row `r`'s sum of exponentials; -/
def blkP (xq kk : Fin 1024 → Fin 256 → ℝ) (r : Fin 1024) : ℝ := ∑ jj : Fin 1024, Real.exp (blkScore xq kk r jj)

/-- and to its exponential-weighted sum of the key block's rows, feature `d`. -/
def blkPv (xq kk : Fin 1024 → Fin 256 → ℝ) (r : Fin 1024) (d : Fin 256) : ℝ :=
  ∑ jj : Fin 1024, Real.exp (blkScore xq kk r jj) * kk jj d

/-- HOW THE PARTIAL SUMS ARE CARRIED: per row `r` a real shift `c r` (the running maximum, though nothing here uses
    that it is one), the sum of exponentials so far `P r` held as `exp (-c r) * P r`, and the weighted sums so far
    `Pv r d` held as `exp (-c r) * Pv r d`. -/
def Rep (c P : Fin 1024 → ℝ) (Pv : Fin 1024 → Fin 256 → ℝ) (mo lo : SCol.Idx → EReal) (ao : SAcc.Idx → EReal) : Prop :=
  ∀ r : Fin 1024, mo (ix2 r 0) = ((c r : ℝ) : EReal)
    ∧ lo (ix2 r 0) = ((Real.exp (-(c r)) * P r : ℝ) : EReal)
    ∧ ∀ d : Fin 256, ao (ix2 r d) = ((Real.exp (-(c r)) * Pv r d : ℝ) : EReal)

/-! ## The arrays' rows and keys by block -/

/-- Row `r` of block `q` (of four blocks of 1024) of an axis of 4096. -/
def at4 (q : Fin 4) (r : Fin 1024) : Fin 4096 := ⟨1024 * q.val + r.val, by have := q.isLt; have := r.isLt; omega⟩

/-- The sum of exponentials of row `n`'s scores over the first `K` key blocks; -/
def partP (xr x2r : Fin 4 → Fin 4096 → Fin 256 → ℝ) (b : Fin 4) (n : Fin 4096) (K : ℕ) : ℝ :=
  ∑ k : Fin 4, if k.val < K then ∑ jj : Fin 1024, Real.exp (score xr x2r b n (at4 k jj)) else 0

/-- and the exponential-weighted sum of those keys' rows of `x2`, feature `d`. -/
def partPv (xr x2r : Fin 4 → Fin 4096 → Fin 256 → ℝ) (b : Fin 4) (n : Fin 4096) (K : ℕ) (d : Fin 256) : ℝ :=
  ∑ k : Fin 4, if k.val < K then ∑ jj : Fin 1024, Real.exp (score xr x2r b n (at4 k jj)) * x2r b (at4 k jj) d else 0

end Cert.Attn

end
-- ==== Proof.StepRead.lean ====
/-
  The step functions read at one index, over the extended reals: the scores as three sums over the features, the
  running maximum as a maximum over the key block, the two running sums as the rescaled old value plus a sum over the
  key block, and the output as a sum over the features of quotients times the weights, plus the bias.
-/
import proofs.«427663_j22179211116668_3_alg».proof.Proof.Steps
import proofs.«427663_j22179211116668_3_alg».proof.Proof.Spec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn

/-! ## The operations that are not pointwise, each read at one index -/

private theorem lhs_qk_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
private theorem lhs_qk_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
private theorem rhs_qk_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
private theorem rhs_qk_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl
/-- The product into the zero accumulator, read at row `a` and column `b`: the sum over the contracted axis. -/
private theorem qk_apply (l : FVec Ideal S1024x256 .bf16) (rr : FVec Ideal S256x1024 .bf16) (a : Fin 1024) (b : Fin 1024) :
    matmul dot_S1024x256_S256x1024_S1024x1024_1_0_0_1_n_n none l rr (constant (F := Ideal) S1024x1024 .f32 0x00000000#32) (ix2 a b)
      = ∑ k : Fin 256, l (ix2 a k) * rr (ix2 k b) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 a b) ((ValueIdx.contrEquiv1 dot_S1024x256_S256x1024_S1024x1024_1_0_0_1_n_n 256 rfl rfl).symm k) = ix2 a k := funext fun c => Fin.ext (by
    match c with
    | ⟨0, _⟩ => exact lhs_qk_0 _ _
    | ⟨1, _⟩ => exact (lhs_qk_1 _ _).trans hk)
  have er : dot_S1024x256_S256x1024_S1024x1024_1_0_0_1_n_n.rhsIdx (ix2 a b) ((ValueIdx.contrEquiv1 dot_S1024x256_S256x1024_S1024x1024_1_0_0_1_n_n 256 rfl rfl).symm k) = ix2 k b := funext fun c => Fin.ext (by
    match c with
    | ⟨0, _⟩ => exact (rhs_qk_0 _ _).trans hk
    | ⟨1, _⟩ => exact rhs_qk_1 _ _)
  rw [el, er]

private theorem lhs_pv_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhs_pv_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhs_pv_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhs_pv_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
/-- The product into the zero accumulator, read at row `a` and column `b`: the sum over the contracted axis. -/
private theorem pv_apply (l : FVec Ideal S1024x1024 .bf16) (rr : FVec Ideal S1024x256 .bf16) (a : Fin 1024) (b : Fin 256) :
    matmul dot_S1024x1024_S1024x256_S1024x256_1_0_0_1_n_n none l rr (constant (F := Ideal) S1024x256 .f32 0x00000000#32) (ix2 a b)
      = ∑ k : Fin 1024, l (ix2 a k) * rr (ix2 k b) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 a b) ((ValueIdx.contrEquiv1 dot_S1024x1024_S1024x256_S1024x256_1_0_0_1_n_n 1024 rfl rfl).symm k) = ix2 a k := funext fun c => Fin.ext (by
    match c with
    | ⟨0, _⟩ => exact lhs_pv_0 _ _
    | ⟨1, _⟩ => exact (lhs_pv_1 _ _).trans hk)
  have er : dot_S1024x1024_S1024x256_S1024x256_1_0_0_1_n_n.rhsIdx (ix2 a b) ((ValueIdx.contrEquiv1 dot_S1024x1024_S1024x256_S1024x256_1_0_0_1_n_n 1024 rfl rfl).symm k) = ix2 k b := funext fun c => Fin.ext (by
    match c with
    | ⟨0, _⟩ => exact (rhs_pv_0 _ _).trans hk
    | ⟨1, _⟩ => exact rhs_pv_1 _ _)
  rw [el, er]

private theorem lhs_lin_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhs_lin_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhs_lin_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhs_lin_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- The product into the zero accumulator, read at row `a` and column `b`: the sum over the contracted axis. -/
private theorem lin_apply (l : FVec Ideal S1024x256 .bf16) (rr : FVec Ideal S256x256 .bf16) (a : Fin 1024) (b : Fin 256) :
    matmul dot_S1024x256_S256x256_S1024x256_1_0_0_1_n_n none l rr (constant (F := Ideal) S1024x256 .f32 0x00000000#32) (ix2 a b)
      = ∑ k : Fin 256, l (ix2 a k) * rr (ix2 k b) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 a b) ((ValueIdx.contrEquiv1 dot_S1024x256_S256x256_S1024x256_1_0_0_1_n_n 256 rfl rfl).symm k) = ix2 a k := funext fun c => Fin.ext (by
    match c with
    | ⟨0, _⟩ => exact lhs_lin_0 _ _
    | ⟨1, _⟩ => exact (lhs_lin_1 _ _).trans hk)
  have er : dot_S1024x256_S256x256_S1024x256_1_0_0_1_n_n.rhsIdx (ix2 a b) ((ValueIdx.contrEquiv1 dot_S1024x256_S256x256_S1024x256_1_0_0_1_n_n 256 rfl rfl).symm k) = ix2 k b := funext fun c => Fin.ext (by
    match c with
    | ⟨0, _⟩ => exact (rhs_lin_0 _ _).trans hk
    | ⟨1, _⟩ => exact rhs_lin_1 _ _)
  rw [el, er]

/-- The key block with its unit axis dropped, at row `r` and feature `d`. -/
private theorem pay8_read (x : Vec Ideal S1x1024x256 .f32) (r : Fin 1024) (d : Fin 256) :
    k0_pay8 (F := Ideal) x (ix2 r d) = x (ix3 0 r d) := by
  unfold k0_pay8
  exact shapeCast_1ab_ab_apply x _ r d

/-- A change of float format is the identity on the extended reals. -/
private theorem pay9_read (x : Vec Ideal S1x1024x256 .f32) (r : Fin 1024) (d : Fin 256) :
    k0_pay9 (F := Ideal) x (ix2 r d) = x (ix3 0 r d) := by
  unfold k0_pay9
  exact pay8_read x r d

/-- Three products into zero accumulators, added: at one index, three sums over the contracted axis. -/
private theorem three_products (l1 l3 : FVec Ideal S1024x256 .bf16) (r1 r2 : FVec Ideal S256x1024 .bf16) (r jj : Fin 1024) :
    addf (addf (matmul dot_S1024x256_S256x1024_S1024x1024_1_0_0_1_n_n none l1 r1 (constant (F := Ideal) S1024x1024 .f32 0x00000000#32))
               (matmul dot_S1024x256_S256x1024_S1024x1024_1_0_0_1_n_n none l1 r2 (constant (F := Ideal) S1024x1024 .f32 0x00000000#32)))
         (matmul dot_S1024x256_S256x1024_S1024x1024_1_0_0_1_n_n none l3 r1 (constant (F := Ideal) S1024x1024 .f32 0x00000000#32)) (ix2 r jj)
      = (∑ k : Fin 256, l1 (ix2 r k) * r1 (ix2 k jj)) + (∑ k : Fin 256, l1 (ix2 r k) * r2 (ix2 k jj))
        + (∑ k : Fin 256, l3 (ix2 r k) * r1 (ix2 k jj)) :=
  congrArg₂ (· + ·) (congrArg₂ (· + ·) (qk_apply l1 r1 r jj) (qk_apply l1 r2 r jj)) (qk_apply l3 r1 r jj)

/-- The word of minus infinity denotes the bottom of the extended reals. -/
private theorem ofBits_neg_inf : Ideal.ofBits .f32 0xFF800000#32 = (⊥ : EReal) := by
  simp [Ideal.ofBits, Ideal.ieee]

/-- An `[a]` array cast to a column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the lanes inserts: row `r`, lane `jj`. -/
private theorem lift_lane (h : S1024x1024.Reduces [1] S1024) (r jj : Fin 1024) :
    h.lift (ix1 r) jj = ix2 r jj :=
  funext fun a => Fin.ext (by
    match a with
    | ⟨0, _⟩ => rfl
    | ⟨1, _⟩ => rfl)

/-- A row's maximum over the lanes, from minus infinity. -/
private theorem rowmax_read (src : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 1024)).fold max (⊥ : EReal) (fun jj => src (ix2 r jj)) := by
  refine (Ideal.multiReduction_maximumf_single src _ h hφ hacc (ix1 r)).trans ?_
  show (Finset.univ : Finset (Fin 1024)).fold max (Ideal.ofBits .f32 0xFF800000#32) (fun jj => src (h.lift (ix1 r) jj)) = _
  rw [ofBits_neg_inf]
  exact Finset.fold_congr fun jj _ => congrArg src (lift_lane h r jj)

/-- A row's sum over the lanes. -/
private theorem rowsum_read (src : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r)
      = ∑ jj : Fin 1024, src (ix2 r jj) := by
  refine (Ideal.multiReduction_add_single src _ h hφ hacc (ix1 r)).trans ?_
  show ∑ jj : Fin 1024, src (h.lift (ix1 r) jj) = _
  exact Finset.sum_congr rfl fun jj _ => congrArg src (lift_lane h r jj)

/-- The new running maximum is the payload it is stored from. -/
private theorem stepM_eq (x0 x1 : Vec Ideal S1x1024x256 .f32) (mo : Vec Ideal S1024x1 .f32) :
    stepM (F := Ideal) x0 x1 mo = k0_pay11 (F := Ideal) x0 x1 mo := by
  unfold stepM k0_pay3
  exact shapeCast_self _ _

/-- The new running maximum at row `r`: the old one against the row's maximum of the scores. -/
private theorem pay11_read (x0 x1 : Vec Ideal S1x1024x256 .f32) (mo : Vec Ideal S1024x1 .f32) (r : Fin 1024) :
    k0_pay11 (F := Ideal) x0 x1 mo (ix2 r 0)
      = max (mo (ix2 r 0)) ((Finset.univ : Finset (Fin 1024)).fold max (⊥ : EReal) (fun jj => k0_pay10 (F := Ideal) x0 x1 (ix2 r jj))) := by
  unfold k0_pay11
  refine (maximumf_apply _ _ (ix2 r 0)).trans ?_
  refine congrArg (max (mo (ix2 r 0))) ?_
  refine (shapeCast_a_a1_apply _ _ r 0).trans ?_
  exact rowmax_read _ _ _ _ r

/-- The factor that rescales an old sum to the new maximum. -/
private theorem pay12_read (x0 x1 : Vec Ideal S1x1024x256 .f32) (mo m' : Vec Ideal S1024x1 .f32) (r : Fin 1024) :
    k0_pay12 (F := Ideal) x0 x1 mo m' (ix2 r 0) = Ideal.exp (m' (ix2 r 0) - k0_pay11 (F := Ideal) x0 x1 mo (ix2 r 0)) := by
  unfold k0_pay12
  rfl

/-- The block's exponentials: each score minus its row's new maximum. -/
private theorem pay13_read (x0 x1 : Vec Ideal S1x1024x256 .f32) (mo : Vec Ideal S1024x1 .f32) (r jj : Fin 1024) :
    k0_pay13 (F := Ideal) x0 x1 mo (ix2 r jj)
      = Ideal.exp (k0_pay10 (F := Ideal) x0 x1 (ix2 r jj) - k0_pay11 (F := Ideal) x0 x1 mo (ix2 r 0)) := by
  unfold k0_pay13
  show Ideal.exp (k0_pay10 (F := Ideal) x0 x1 (ix2 r jj)
      - broadcastTo S1024x1024 (k0_pay11 (F := Ideal) x0 x1 mo) broadcasts_S1024x1_S1024x1024 (ix2 r jj)) = _
  exact congrArg (fun t => Ideal.exp (k0_pay10 (F := Ideal) x0 x1 (ix2 r jj) - t)) (broadcastTo_a1_ab_apply _ _ r jj)

/-! ## The step functions at one index -/

/-- The scores of the body, row `r` of the query block against row `jj` of the key block: the product of the two blocks
    and the two correction products of the split into a leading part and a remainder (each remainder is `v - v`). -/
theorem sc_read (x0 x1 : Vec Ideal S1x1024x256 .f32) (r jj : Fin 1024) :
    k0_pay10 (F := Ideal) x0 x1 (ix2 r jj)
      = (∑ d : Fin 256, x0 (ix3 0 r d) * x1 (ix3 0 jj d))
        + (∑ d : Fin 256, x0 (ix3 0 r d) * (x1 (ix3 0 jj d) - x1 (ix3 0 jj d)))
        + (∑ d : Fin 256, (x0 (ix3 0 r d) - x0 (ix3 0 r d)) * x1 (ix3 0 jj d)) := by
  have hq : ∀ d : Fin 256, shapeCast S1024x256 x0 shapeCasts_S1x1024x256_S1024x256 (ix2 r d) = x0 (ix3 0 r d) :=
    fun d => shapeCast_1ab_ab_apply x0 _ r d
  have hk : ∀ d : Fin 256, k0_pay8 (F := Ideal) x1 (ix2 jj d) = x1 (ix3 0 jj d) := fun d => pay8_read x1 jj d
  unfold k0_pay10
  refine (three_products _ _ _ _ r jj).trans ?_
  refine congrArg₂ (· + ·) (congrArg₂ (· + ·) (Finset.sum_congr rfl fun d _ => ?_) (Finset.sum_congr rfl fun d _ => ?_))
    (Finset.sum_congr rfl fun d _ => ?_)
  · refine congrArg₂ (· * ·) (hq d) ?_
    exact (transpose_ix2_apply _ _ d jj).trans (pay9_read x1 jj d)
  · refine congrArg₂ (· * ·) (hq d) ?_
    refine (transpose_ix2_apply _ _ d jj).trans ?_
    exact congrArg₂ (· - ·) (hk d) (hk d)
  · refine congrArg₂ (· * ·) ?_ ?_
    · exact congrArg₂ (· - ·) (hq d) (hq d)
    · exact (transpose_ix2_apply _ _ d jj).trans (pay9_read x1 jj d)

theorem stepM_read (x0 x1 : Vec Ideal S1x1024x256 .f32) (mo : Vec Ideal S1024x1 .f32) (r : Fin 1024) :
    stepM (F := Ideal) x0 x1 mo (ix2 r 0)
      = max (mo (ix2 r 0)) ((Finset.univ : Finset (Fin 1024)).fold max (⊥ : EReal) (fun jj => k0_pay10 (F := Ideal) x0 x1 (ix2 r jj))) := by
  exact (congrFun (stepM_eq x0 x1 mo) (ix2 r 0)).trans (pay11_read x0 x1 mo r)

theorem stepL_read (x0 x1 : Vec Ideal S1x1024x256 .f32) (mo lo : Vec Ideal S1024x1 .f32) (r : Fin 1024) :
    stepL (F := Ideal) x0 x1 mo lo (ix2 r 0)
      = Ideal.exp (mo (ix2 r 0) - stepM (F := Ideal) x0 x1 mo (ix2 r 0)) * lo (ix2 r 0)
        + ∑ jj : Fin 1024, Ideal.exp (k0_pay10 (F := Ideal) x0 x1 (ix2 r jj) - stepM (F := Ideal) x0 x1 mo (ix2 r 0)) := by
  rw [stepM_eq]
  unfold stepL k0_pay1
  refine (congrFun (shapeCast_self _ _) (ix2 r 0)).trans ?_
  refine (addf_apply _ _ (ix2 r 0)).trans ?_
  refine congrArg₂ (· + ·) ?_ ?_
  · unfold k0_pay14
    refine (mulf_apply _ _ (ix2 r 0)).trans ?_
    exact congrArg (· * lo (ix2 r 0)) (pay12_read x0 x1 mo mo r)
  · unfold k0_pay15
    refine (shapeCast_a_a1_apply _ _ r 0).trans ?_
    refine (rowsum_read _ _ _ _ r).trans ?_
    exact Finset.sum_congr rfl fun jj _ => pay13_read x0 x1 mo r jj

theorem stepA_read (x0 x1 : Vec Ideal S1x1024x256 .f32) (mo : Vec Ideal S1024x1 .f32) (ao : Vec Ideal S1024x256 .f32) (r : Fin 1024) (d : Fin 256) :
    stepA (F := Ideal) x0 x1 mo ao (ix2 r d)
      = Ideal.exp (mo (ix2 r 0) - stepM (F := Ideal) x0 x1 mo (ix2 r 0)) * ao (ix2 r d)
        + ∑ jj : Fin 1024, Ideal.exp (k0_pay10 (F := Ideal) x0 x1 (ix2 r jj) - stepM (F := Ideal) x0 x1 mo (ix2 r 0)) * x1 (ix3 0 jj d) := by
  rw [stepM_eq]
  unfold stepA k0_pay2
  refine (congrFun (shapeCast_self _ _) (ix2 r d)).trans ?_
  refine (addf_apply _ _ (ix2 r d)).trans ?_
  refine congrArg₂ (· + ·) ?_ ?_
  · refine (mulf_apply _ _ (ix2 r d)).trans ?_
    refine congrArg (· * ao (ix2 r d)) ?_
    exact (broadcastTo_a1_ab_apply _ _ r d).trans (pay12_read x0 x1 mo mo r)
  · refine (pv_apply _ _ r d).trans ?_
    exact Finset.sum_congr rfl fun jj _ => congrArg₂ (· * ·) (pay13_read x0 x1 mo r jj) (pay9_read x1 jj d)

theorem outF_read (ao : Vec Ideal S1024x256 .f32) (lo : Vec Ideal S1024x1 .f32) (w : Vec Ideal S256x256 .f32) (bb : Vec Ideal S1x256 .f32) (r : Fin 1024) (e : Fin 256) :
    outF (F := Ideal) ao lo w bb (ix3 0 r e)
      = (∑ d : Fin 256, Ideal.div (ao (ix2 r d)) (lo (ix2 r 0)) * w (ix2 d e)) + bb (ix2 0 e) := by
  unfold outF k0_pay4
  refine (shapeCast_ab_1ab_apply _ _ 0 r e).trans ?_
  refine (addf_apply _ _ (ix2 r e)).trans ?_
  refine congrArg₂ (· + ·) ?_ ?_
  · refine (lin_apply _ _ r e).trans ?_
    refine Finset.sum_congr rfl fun d _ => congrArg₂ (· * ·) ?_ ?_
    · refine (divf_apply _ _ (ix2 r d)).trans ?_
      exact congrArg (Ideal.div (ao (ix2 r d))) (broadcastTo_a1_ab_apply _ _ r d)
    · exact congrFun (shapeCast_self w _) (ix2 d e)
  · refine (broadcastTo_1b_ab_apply _ _ r e).trans ?_
    refine (shapeCast_a_1a_apply _ _ 0 e).trans ?_
    exact shapeCast_1a_a_apply bb _ e

/-- The three values the first key block starts from: minus infinity, zero, zero. -/
theorem pay5_read (r : Fin 1024) : k0_pay5 (F := Ideal) (ix2 r 0) = (⊥ : EReal) := by
  unfold k0_pay5
  refine (congrFun (shapeCast_self _ _) (ix2 r 0)).trans ?_
  exact ofBits_neg_inf
theorem pay6_read (r : Fin 1024) : k0_pay6 (F := Ideal) (ix2 r 0) = (0 : EReal) := by
  unfold k0_pay6
  refine (congrFun (shapeCast_self _ _) (ix2 r 0)).trans ?_
  exact Ideal.ofBits_zero_f32
theorem pay7_read (r : Fin 1024) (d : Fin 256) : k0_pay7 (F := Ideal) (ix2 r d) = (0 : EReal) := by
  unfold k0_pay7
  refine (congrFun (shapeCast_self _ _) (ix2 r d)).trans ?_
  exact Ideal.ofBits_zero_f32

end Cert.KernelIdeal.Attn

end
-- ==== Proof.Softmax.lean ====
/-
  Real-number facts about a softmax-weighted average: it does not depend on the shift subtracted inside the
  exponentials, a common factor cancels from a quotient, and one step of the running rescale.
-/
import Mathlib.Analysis.SpecialFunctions.Exp
import Mathlib.Algebra.BigOperators.Field

open scoped BigOperators

namespace Cert.Attn

/-- `exp (s - c) = exp (-c) * exp s`. -/
theorem exp_sub_shift (s c : ℝ) : Real.exp (s - c) = Real.exp (-c) * Real.exp s := by
  rw [← Real.exp_add]; congr 1; ring

/-- A sum of shifted exponentials is the common factor `exp (-c)` times the unshifted sum. -/
theorem sum_exp_shift {ι : Type*} (s : Finset ι) (f : ι → ℝ) (c : ℝ) :
    ∑ j ∈ s, Real.exp (f j - c) = Real.exp (-c) * ∑ j ∈ s, Real.exp (f j) := by
  rw [Finset.mul_sum]; exact Finset.sum_congr rfl fun j _ => exp_sub_shift _ _

/-- The same with a weight on every term. -/
theorem sum_exp_shift_mul {ι : Type*} (s : Finset ι) (f v : ι → ℝ) (c : ℝ) :
    ∑ j ∈ s, Real.exp (f j - c) * v j = Real.exp (-c) * ∑ j ∈ s, Real.exp (f j) * v j := by
  rw [Finset.mul_sum]
  exact Finset.sum_congr rfl fun j _ => by rw [exp_sub_shift, mul_assoc]

/-- ONE STEP OF THE RUNNING RESCALE: the old partial sum carried at shift `c`, moved to the new shift `c'` by the
    factor `exp (c - c')`, plus the new block's terms at shift `c'`, is the longer partial sum at shift `c'`. -/
theorem rescale_step (c c' P B : ℝ) :
    Real.exp (c - c') * (Real.exp (-c) * P) + Real.exp (-c') * B = Real.exp (-c') * (P + B) := by
  have h : Real.exp (c - c') * Real.exp (-c) = Real.exp (-c') := by
    rw [← Real.exp_add]; congr 1; ring
  rw [← mul_assoc, h]; ring

/-- The common factor cancels from the quotient of two sums carried at one shift. -/
theorem scaled_quot (c P Pv : ℝ) : (Real.exp (-c) * Pv) / (Real.exp (-c) * P) = Pv / P := by
  rw [mul_div_mul_left _ _ (Real.exp_pos _).ne']

/-- A SOFTMAX-WEIGHTED AVERAGE DOES NOT DEPEND ON THE SHIFT: the weights `exp (f j - c) / ∑ exp (f j' - c)`, each times
    `v j`, sum to `(∑ exp (f j) * v j) / ∑ exp (f j)`, whatever `c`. -/
theorem avg_shift {ι : Type*} (s : Finset ι) (f v : ι → ℝ) (c : ℝ) :
    ∑ j ∈ s, Real.exp (f j - c) / (∑ j' ∈ s, Real.exp (f j' - c)) * v j
      = (∑ j ∈ s, Real.exp (f j) * v j) / (∑ j ∈ s, Real.exp (f j)) := by
  have h1 : ∀ j ∈ s, Real.exp (f j - c) / (∑ j' ∈ s, Real.exp (f j' - c)) * v j
      = (Real.exp (f j - c) * v j) / (∑ j' ∈ s, Real.exp (f j' - c)) := fun j _ => by ring
  rw [Finset.sum_congr rfl h1, ← Finset.sum_div, sum_exp_shift, sum_exp_shift_mul, scaled_quot]

end Cert.Attn
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.StepValue.lean ====
/-
  One key block's step keeps the carried form of the partial sums: from a shift and the two sums so far it leaves a
  new shift and the sums with the block's terms added; the first block starts the sums; and the output, read from a
  carried state whose sum of exponentials is positive, is the quotient of the sums through the linear layer.
-/
import proofs.«427663_j22179211116668_3_alg».proof.Proof.StepRead
import proofs.«427663_j22179211116668_3_alg».proof.Proof.Softmax
import proofs.«427663_j22179211116668_3_alg».proof.Proof.LibRealSums
import Mathlib.Data.Finset.Fold

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn
open Idealize.ShloMosaic.RealSums (coe_sum)

/-! ## Extended reals that are real numbers -/

/-- A real number minus itself is zero, in the extended reals too. -/
private theorem coe_sub_self (v : ℝ) : ((v : ℝ) : EReal) - ((v : ℝ) : EReal) = 0 := by
  rw [← EReal.coe_sub, sub_self, EReal.coe_zero]

/-- The greatest of 1024 real numbers, taken from minus infinity upwards, is a real number: it is below plus infinity
    because every term is, and above minus infinity because there is a term. -/
private theorem fold_max_real (s : Fin 1024 → ℝ) :
    ∃ t : ℝ, (Finset.univ : Finset (Fin 1024)).fold max (⊥ : EReal) (fun jj => ((s jj : ℝ) : EReal)) = ((t : ℝ) : EReal) := by
  have hlt : (Finset.univ : Finset (Fin 1024)).fold max (⊥ : EReal) (fun jj => ((s jj : ℝ) : EReal)) < ⊤ :=
    (Finset.fold_max_lt _).mpr ⟨bot_lt_top, fun x _ => EReal.coe_lt_top _⟩
  have hgt : ⊥ < (Finset.univ : Finset (Fin 1024)).fold max (⊥ : EReal) (fun jj => ((s jj : ℝ) : EReal)) :=
    (Finset.lt_fold_max _).mpr (Or.inr ⟨0, Finset.mem_univ _, EReal.bot_lt_coe _⟩)
  generalize (Finset.univ : Finset (Fin 1024)).fold max (⊥ : EReal) (fun jj => ((s jj : ℝ) : EReal)) = y at hlt hgt
  induction y using EReal.rec with
  | bot => exact absurd hgt (lt_irrefl _)
  | top => exact absurd hlt (lt_irrefl _)
  | coe t => exact ⟨t, rfl⟩

/-- Against a real number, or against minus infinity, that greatest value is still a real number. -/
private theorem max_fold_real (m : EReal) (hm : m = ⊥ ∨ ∃ c : ℝ, m = ((c : ℝ) : EReal)) (s : Fin 1024 → ℝ) :
    ∃ t : ℝ, max m ((Finset.univ : Finset (Fin 1024)).fold max (⊥ : EReal) (fun jj => ((s jj : ℝ) : EReal))) = ((t : ℝ) : EReal) := by
  obtain ⟨t, ht⟩ := fold_max_real s
  rw [ht]
  rcases hm with rfl | ⟨c, rfl⟩
  · exact ⟨t, max_eq_right bot_le⟩
  · exact ⟨max c t, (EReal.coe_strictMono.monotone.map_max).symm⟩

/-! ## One row's arithmetic, over the real numbers inside the extended reals -/

/-- The running sum of exponentials: the old sum carried at shift c, moved to shift c', plus the block's exponentials
    at shift c', is the longer sum carried at shift c'. -/
private theorem row_sum (c c' P : ℝ) (s : Fin 1024 → ℝ) :
    Ideal.exp (((c : ℝ) : EReal) - ((c' : ℝ) : EReal)) * ((Real.exp (-c) * P : ℝ) : EReal)
      + ∑ jj : Fin 1024, Ideal.exp (((s jj : ℝ) : EReal) - ((c' : ℝ) : EReal))
    = ((Real.exp (-c') * (P + ∑ jj : Fin 1024, Real.exp (s jj)) : ℝ) : EReal) := by
  simp only [← EReal.coe_sub, Ideal.exp_coe, ← EReal.coe_mul, ← coe_sum, ← EReal.coe_add]
  rw [sum_exp_shift, rescale_step]

/-- The same for the running weighted sum, every exponential times a real weight. -/
private theorem row_wsum (c c' Pv : ℝ) (s v : Fin 1024 → ℝ) :
    Ideal.exp (((c : ℝ) : EReal) - ((c' : ℝ) : EReal)) * ((Real.exp (-c) * Pv : ℝ) : EReal)
      + ∑ jj : Fin 1024, Ideal.exp (((s jj : ℝ) : EReal) - ((c' : ℝ) : EReal)) * ((v jj : ℝ) : EReal)
    = ((Real.exp (-c') * (Pv + ∑ jj : Fin 1024, Real.exp (s jj) * v jj) : ℝ) : EReal) := by
  simp only [← EReal.coe_sub, Ideal.exp_coe, ← EReal.coe_mul, ← coe_sum, ← EReal.coe_add]
  rw [sum_exp_shift_mul, rescale_step]

/-- From a zero sum the rescaled old part vanishes whatever its factor, and the block's exponentials remain. -/
private theorem row_sum_first (f : EReal) (c' : ℝ) (s : Fin 1024 → ℝ) :
    f * (0 : EReal) + ∑ jj : Fin 1024, Ideal.exp (((s jj : ℝ) : EReal) - ((c' : ℝ) : EReal))
    = ((Real.exp (-c') * ∑ jj : Fin 1024, Real.exp (s jj) : ℝ) : EReal) := by
  rw [mul_zero, zero_add]
  simp only [← EReal.coe_sub, Ideal.exp_coe, ← coe_sum]
  rw [sum_exp_shift]

private theorem row_wsum_first (f : EReal) (c' : ℝ) (s v : Fin 1024 → ℝ) :
    f * (0 : EReal) + ∑ jj : Fin 1024, Ideal.exp (((s jj : ℝ) : EReal) - ((c' : ℝ) : EReal)) * ((v jj : ℝ) : EReal)
    = ((Real.exp (-c') * ∑ jj : Fin 1024, Real.exp (s jj) * v jj : ℝ) : EReal) := by
  rw [mul_zero, zero_add]
  simp only [← EReal.coe_sub, Ideal.exp_coe, ← EReal.coe_mul, ← coe_sum]
  rw [sum_exp_shift_mul]

/-! ## The scores and the new maximum of real blocks -/

/-- The body's score of two blocks of real numbers is the real score: both correction products are sums of zeros. -/
private theorem score_real (x0 x1 : Vec Ideal S1x1024x256 .f32) (xq kk : Fin 1024 → Fin 256 → ℝ)
    (hx0 : ∀ r d, x0 (ix3 0 r d) = ((xq r d : ℝ) : EReal)) (hx1 : ∀ r d, x1 (ix3 0 r d) = ((kk r d : ℝ) : EReal))
    (r jj : Fin 1024) :
    k0_pay10 (F := Ideal) x0 x1 (ix2 r jj) = ((blkScore xq kk r jj : ℝ) : EReal) := by
  rw [sc_read]
  simp only [hx0, hx1, coe_sub_self, mul_zero, zero_mul, Finset.sum_const_zero, add_zero]
  rw [blkScore, coe_sum]
  exact Finset.sum_congr rfl fun d _ => (EReal.coe_mul _ _).symm

/-- The new running maximum of a row is a real number, when the old one is a real number or minus infinity. -/
private theorem stepM_real (x0 x1 : Vec Ideal S1x1024x256 .f32) (xq kk : Fin 1024 → Fin 256 → ℝ)
    (hx0 : ∀ r d, x0 (ix3 0 r d) = ((xq r d : ℝ) : EReal)) (hx1 : ∀ r d, x1 (ix3 0 r d) = ((kk r d : ℝ) : EReal))
    (mo : Vec Ideal S1024x1 .f32) (r : Fin 1024) (hm : mo (ix2 r 0) = ⊥ ∨ ∃ c : ℝ, mo (ix2 r 0) = ((c : ℝ) : EReal)) :
    ∃ t : ℝ, stepM (F := Ideal) x0 x1 mo (ix2 r 0) = ((t : ℝ) : EReal) := by
  rw [stepM_read]
  simp only [score_real x0 x1 xq kk hx0 hx1]
  exact max_fold_real _ hm _

/-- A LATER KEY BLOCK: the carried sums grow by the block's terms, at some new shift. -/
theorem step_rep (x0 x1 : Vec Ideal S1x1024x256 .f32) (xq kk : Fin 1024 → Fin 256 → ℝ)
    (hx0 : ∀ r d, x0 (ix3 0 r d) = ((xq r d : ℝ) : EReal)) (hx1 : ∀ r d, x1 (ix3 0 r d) = ((kk r d : ℝ) : EReal))
    (c P : Fin 1024 → ℝ) (Pv : Fin 1024 → Fin 256 → ℝ) (mo lo : Vec Ideal S1024x1 .f32) (ao : Vec Ideal S1024x256 .f32)
    (h : Rep c P Pv mo lo ao) :
    ∃ c' : Fin 1024 → ℝ, Rep c' (fun r => P r + blkP xq kk r) (fun r d => Pv r d + blkPv xq kk r d)
      (stepM (F := Ideal) x0 x1 mo) (stepL (F := Ideal) x0 x1 mo lo) (stepA (F := Ideal) x0 x1 mo ao) := by
  choose c' hc' using fun r => stepM_real x0 x1 xq kk hx0 hx1 mo r (Or.inr ⟨c r, (h r).1⟩)
  refine ⟨c', fun r => ⟨hc' r, ?_, fun d => ?_⟩⟩
  · rw [stepL_read, hc' r, (h r).1, (h r).2.1]
    simp only [score_real x0 x1 xq kk hx0 hx1]
    exact row_sum (c r) (c' r) (P r) (blkScore xq kk r)
  · rw [stepA_read, hc' r, (h r).1, (h r).2.2 d]
    simp only [score_real x0 x1 xq kk hx0 hx1, hx1]
    exact row_wsum (c r) (c' r) (Pv r d) (blkScore xq kk r) (fun jj => kk jj d)

/-- THE FIRST KEY BLOCK, from minus infinity, zero and zero: the carried sums are the block's. -/
theorem first_rep (x0 x1 : Vec Ideal S1x1024x256 .f32) (xq kk : Fin 1024 → Fin 256 → ℝ)
    (hx0 : ∀ r d, x0 (ix3 0 r d) = ((xq r d : ℝ) : EReal)) (hx1 : ∀ r d, x1 (ix3 0 r d) = ((kk r d : ℝ) : EReal)) :
    ∃ c' : Fin 1024 → ℝ, Rep c' (blkP xq kk) (blkPv xq kk)
      (stepM (F := Ideal) x0 x1 (k0_pay5 (F := Ideal))) (stepL (F := Ideal) x0 x1 (k0_pay5 (F := Ideal)) (k0_pay6 (F := Ideal)))
      (stepA (F := Ideal) x0 x1 (k0_pay5 (F := Ideal)) (k0_pay7 (F := Ideal))) := by
  choose c' hc' using fun r => stepM_real x0 x1 xq kk hx0 hx1 (k0_pay5 (F := Ideal)) r (Or.inl (pay5_read r))
  refine ⟨c', fun r => ⟨hc' r, ?_, fun d => ?_⟩⟩
  · rw [stepL_read, hc' r, pay6_read]
    simp only [score_real x0 x1 xq kk hx0 hx1]
    exact row_sum_first _ (c' r) (blkScore xq kk r)
  · rw [stepA_read, hc' r, pay7_read]
    simp only [score_real x0 x1 xq kk hx0 hx1, hx1]
    exact row_wsum_first _ (c' r) (blkScore xq kk r) (fun jj => kk jj d)

/-- THE OUTPUT of a carried state with positive sums of exponentials. -/
theorem out_rep (c P : Fin 1024 → ℝ) (Pv : Fin 1024 → Fin 256 → ℝ) (mo lo : Vec Ideal S1024x1 .f32) (ao : Vec Ideal S1024x256 .f32)
    (h : Rep c P Pv mo lo ao) (hP : ∀ r, 0 < P r)
    (w : Vec Ideal S256x256 .f32) (bb : Vec Ideal S1x256 .f32) (wr : Fin 256 → Fin 256 → ℝ) (br : Fin 256 → ℝ)
    (hw : ∀ d e, w (ix2 d e) = ((wr d e : ℝ) : EReal)) (hb : ∀ e, bb (ix2 0 e) = ((br e : ℝ) : EReal)) (r : Fin 1024) (e : Fin 256) :
    outF (F := Ideal) ao lo w bb (ix3 0 r e) = (((∑ d : Fin 256, Pv r d / P r * wr d e) + br e : ℝ) : EReal) := by
  have hne : Real.exp (-(c r)) * P r ≠ 0 := (mul_pos (Real.exp_pos _) (hP r)).ne'
  rw [outF_read, (h r).2.1]
  simp only [(h r).2.2, hw, hb, Ideal.div_coe hne, ← EReal.coe_mul, ← coe_sum, ← EReal.coe_add]
  rw [EReal.coe_eq_coe_iff]
  congr 1
  refine Finset.sum_congr rfl fun d _ => ?_
  rw [mul_one_div, scaled_quot]

end Cert.KernelIdeal.Attn

end
-- ==== Proof.SpecSums.lean ====
/-
  The sums over the keys taken four blocks of 1024 at a time: after all four blocks the partial sums are the sums over
  the 4096 keys, a partial sum of exponentials is positive once a block is in it, and one more block adds its terms.
-/
import proofs.«427663_j22179211116668_3_alg».proof.Proof.Spec
import Mathlib.Algebra.BigOperators.Fin
import Mathlib.Algebra.BigOperators.Group.Finset.Piecewise
import Mathlib.Algebra.Order.BigOperators.Group.Finset
import Mathlib.Data.Fintype.BigOperators

noncomputable section

open scoped BigOperators

namespace Cert.Attn

/-! ## Two facts about sums over the four blocks, with the blocks' own sums kept opaque -/

/-- A key index below 4096 is a block number below 4 and a place below 1024 in that block, and conversely:
    `j = 1024 * (j / 1024) + j % 1024`. -/
private def at4Equiv : Fin 4 × Fin 1024 ≃ Fin 4096 where
  toFun x := at4 x.1 x.2
  invFun j := (⟨j.val / 1024, by have := j.isLt; omega⟩, ⟨j.val % 1024, by omega⟩)
  left_inv x := by
    obtain ⟨q, r⟩ := x
    have hq := q.isLt
    have hr := r.isLt
    apply Prod.ext <;> apply Fin.ext <;> simp only [at4] <;> omega
  right_inv j := by
    apply Fin.ext
    simp only [at4]
    omega

/-- Summing block by block and then over each block's 1024 places visits every one of the 4096 indices once. -/
private theorem sum_at4 (f : Fin 4096 → ℝ) : (∑ k : Fin 4, ∑ jj : Fin 1024, f (at4 k jj)) = ∑ j : Fin 4096, f j :=
  (Fintype.sum_prod_type' (fun k jj => f (at4 k jj))).symm.trans
    (Fintype.sum_equiv at4Equiv (fun x => f (at4 x.1 x.2)) f (fun _ => rfl))

/-- The blocks before `k + 1` are the blocks before `k` and block `k` itself: `k' < k + 1` holds exactly when `k' < k`
    or `k' = k`, and these two exclude one another. -/
private theorem sum_lt_succ (B : Fin 4 → ℝ) (k : Fin 4) :
    (∑ k' : Fin 4, if k'.val < k.val + 1 then B k' else 0)
      = (∑ k' : Fin 4, if k'.val < k.val then B k' else 0) + B k := by
  have h : ∀ k' : Fin 4, (if k'.val < k.val + 1 then B k' else 0)
      = (if k'.val < k.val then B k' else 0) + (if k' = k then B k' else 0) := by
    intro k'
    by_cases h1 : k'.val < k.val
    · have h2 : k' ≠ k := fun e => by rw [e] at h1; exact lt_irrefl _ h1
      rw [if_pos h1, if_pos (Nat.lt_succ_of_lt h1), if_neg h2, add_zero]
    · by_cases h2 : k' = k
      · rw [h2, if_pos (Nat.lt_succ_self _), if_neg (lt_irrefl _), if_pos rfl, zero_add]
      · have h3 : ¬ k'.val < k.val + 1 := fun h => h2 (Fin.ext (by omega))
        rw [if_neg h3, if_neg h1, if_neg h2, add_zero]
  rw [Finset.sum_congr rfl (fun k' _ => h k'), Finset.sum_add_distrib, Finset.sum_ite_eq', if_pos (Finset.mem_univ _)]

/-- With all four blocks in, every condition holds. -/
private theorem sum_lt_four (B : Fin 4 → ℝ) : (∑ k : Fin 4, if k.val < 4 then B k else 0) = ∑ k : Fin 4, B k :=
  Finset.sum_congr rfl (fun k _ => if_pos k.isLt)

/-- With no block in, no condition holds. -/
private theorem sum_lt_zero (B : Fin 4 → ℝ) : (∑ k : Fin 4, if k.val < 0 then B k else 0) = 0 :=
  Finset.sum_eq_zero (fun k _ => if_neg (Nat.not_lt_zero _))

/-! ## The partial sums -/

/-- After the four key blocks the sum of exponentials is the sum over all 4096 keys; -/
theorem partP_four (xr x2r : Fin 4 → Fin 4096 → Fin 256 → ℝ) (b : Fin 4) (n : Fin 4096) :
    partP xr x2r b n 4 = ∑ j : Fin 4096, Real.exp (score xr x2r b n j) := by
  unfold partP
  rw [sum_lt_four (fun k => ∑ jj : Fin 1024, Real.exp (score xr x2r b n (at4 k jj)))]
  exact sum_at4 (fun j => Real.exp (score xr x2r b n j))

/-- and the weighted sum likewise. -/
theorem partPv_four (xr x2r : Fin 4 → Fin 4096 → Fin 256 → ℝ) (b : Fin 4) (n : Fin 4096) (d : Fin 256) :
    partPv xr x2r b n 4 d = ∑ j : Fin 4096, Real.exp (score xr x2r b n j) * x2r b j d := by
  unfold partPv
  rw [sum_lt_four (fun k => ∑ jj : Fin 1024, Real.exp (score xr x2r b n (at4 k jj)) * x2r b (at4 k jj) d)]
  exact sum_at4 (fun j => Real.exp (score xr x2r b n j) * x2r b j d)

/-- Before any block the sums are empty; -/
theorem partP_zero (xr x2r : Fin 4 → Fin 4096 → Fin 256 → ℝ) (b : Fin 4) (n : Fin 4096) : partP xr x2r b n 0 = 0 := by
  unfold partP
  exact sum_lt_zero _
theorem partPv_zero (xr x2r : Fin 4 → Fin 4096 → Fin 256 → ℝ) (b : Fin 4) (n : Fin 4096) (d : Fin 256) : partPv xr x2r b n 0 d = 0 := by
  unfold partPv
  exact sum_lt_zero _

/-- block `k` adds its keys' terms; -/
theorem partP_succ (xr x2r : Fin 4 → Fin 4096 → Fin 256 → ℝ) (b : Fin 4) (n : Fin 4096) (k : Fin 4) :
    partP xr x2r b n (k.val + 1) = partP xr x2r b n k.val + ∑ jj : Fin 1024, Real.exp (score xr x2r b n (at4 k jj)) := by
  unfold partP
  exact sum_lt_succ (fun k => ∑ jj : Fin 1024, Real.exp (score xr x2r b n (at4 k jj))) k
theorem partPv_succ (xr x2r : Fin 4 → Fin 4096 → Fin 256 → ℝ) (b : Fin 4) (n : Fin 4096) (k : Fin 4) (d : Fin 256) :
    partPv xr x2r b n (k.val + 1) d
      = partPv xr x2r b n k.val d + ∑ jj : Fin 1024, Real.exp (score xr x2r b n (at4 k jj)) * x2r b (at4 k jj) d := by
  unfold partPv
  exact sum_lt_succ (fun k => ∑ jj : Fin 1024, Real.exp (score xr x2r b n (at4 k jj)) * x2r b (at4 k jj) d) k

/-- and with a block in it the sum of exponentials is positive. -/
theorem partP_pos (xr x2r : Fin 4 → Fin 4096 → Fin 256 → ℝ) (b : Fin 4) (n : Fin 4096) (K : ℕ) (hK : 0 < K) :
    0 < partP xr x2r b n K := by
  unfold partP
  -- every block's own sum is a sum of 1024 exponentials, hence positive
  have hB : ∀ k : Fin 4, 0 < ∑ jj : Fin 1024, Real.exp (score xr x2r b n (at4 k jj)) := fun k =>
    Finset.sum_pos (fun _ _ => Real.exp_pos _) ⟨⟨0, by norm_num⟩, Finset.mem_univ _⟩
  -- so each term is nonnegative, and the term of block 0 is in the sum since `0 < K`
  refine Finset.sum_pos' (fun k _ => ?_) ⟨(0 : Fin 4), Finset.mem_univ _, ?_⟩
  · by_cases h : k.val < K
    · rw [if_pos h]; exact (hB k).le
    · rw [if_neg h]
  · have h0 : (0 : Fin 4).val < K := hK
    rw [if_pos h0]
    exact hB 0

end Cert.Attn

end
-- ==== Proof.Invariant.lean ====
/-
  What the three scratch buffers hold after every grid point. Point `n` of the 64 is batch `n / 16`, query block
  `n / 4 % 4` and key block `n % 4`; after it the buffers carry, for each row of the query block, the partial sums over
  the key blocks `0 … n % 4` in the carried form. By induction on the point: the first key block starts the sums, each
  later one adds its terms to what the point before left.
-/
import proofs.«427663_j22179211116668_3_alg».proof.Proof.Gen.KernelIdeal.Frame
import proofs.«427663_j22179211116668_3_alg».proof.Proof.Pieces
import proofs.«427663_j22179211116668_3_alg».proof.Proof.StepValue
import proofs.«427663_j22179211116668_3_alg».proof.Proof.SpecSums

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn
open Idealize.ShloMosaic.Pipeline (Dat)

variable (m : (ℓ : Loc nD τ sig) → Buf (Elt Ideal) ℓ)

/-- The batch, the query block and the key block of grid point `n`. -/
def bOf (n : ℕ) : Fin 4 := ⟨n / 16 % 4, Nat.mod_lt _ (by decide)⟩
def qOf (n : ℕ) : Fin 4 := ⟨n / 4 % 4, Nat.mod_lt _ (by decide)⟩
def kOf (n : ℕ) : Fin 4 := ⟨n % 4, Nat.mod_lt _ (by decide)⟩

/-- The two big arguments as the region finds them, read as real arrays. -/
abbrev xR (c : Dev nD) : Fin 4 → Fin 4096 → Fin 256 → ℝ := re3 (V m c main_arg0)
abbrev x2R (c : Dev nD) : Fin 4 → Fin 4096 → Fin 256 → ℝ := re3 (V m c main_arg1)

/-! ## The two big blocks of a point, read in the arrays -/
/-- The query block and the key block of a point, and the two arrays they are cut from, at their literal types. -/
private abbrev xblk (c : Dev nD) (t : Fin cfg0.N) : Vec Ideal S1x1024x256 .f32 := iblk m c 0 t
private abbrev kblk (c : Dev nD) (t : Fin cfg0.N) : Vec Ideal S1x1024x256 .f32 := iblk m c 1 t
private abbrev xarr (c : Dev nD) : Vec Ideal S4x4096x256 .f32 := V m c main_arg0
private abbrev karr (c : Dev nD) : Vec Ideal S4x4096x256 .f32 := V m c main_arg1

/-- Where the query window's block sits at point `t`: batch `t / 16`, row block `t / 4 % 4`, all the features. -/
private theorem idx0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)

/-- Where the key window's block sits: batch `t / 16`, row block `t % 4`, all the features. -/
private theorem idx1 : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)

/-- Row `r`, feature `d` of the query block at point `t` is the first array at the point's batch, row `r` of its query block. -/
private theorem xblk_apply (c : Dev nD) (t : Fin cfg0.N) (r : Fin 1024) (d : Fin 256) :
    xblk m c t (ix3 0 r d) = xarr m c (ix3 (bOf t.val) (at4 (qOf t.val) r) d) := by
  obtain ⟨h0, h1, h2⟩ := idx0 t
  have hN : t.val < 64 := lt_of_lt_of_eq t.isLt N_0
  unfold xblk xarr iblk
  rw [View.read_apply]
  show V m c main_arg0 _ = V m c main_arg0 _
  congr 1
  funext a
  apply Fin.ext
  match a with
  | ⟨0, _⟩ => show win0_0.index t 0 * 1 + 1 * 0 = (bOf t.val).val; rw [h0]; unfold bOf; dsimp only; omega
  | ⟨1, _⟩ => show win0_0.index t 1 * 1024 + 1 * r.val = (at4 (qOf t.val) r).val; rw [h1]; unfold at4 qOf; dsimp only; omega
  | ⟨2, _⟩ => show win0_0.index t 2 * 256 + 1 * d.val = d.val; rw [h2]; omega

/-- Row `jj`, feature `d` of the key block at point `t` is the second array at the point's batch, row `jj` of its key block. -/
private theorem kblk_apply (c : Dev nD) (t : Fin cfg0.N) (jj : Fin 1024) (d : Fin 256) :
    kblk m c t (ix3 0 jj d) = karr m c (ix3 (bOf t.val) (at4 (kOf t.val) jj) d) := by
  obtain ⟨h0, h1, h2⟩ := idx1 t
  have hN : t.val < 64 := lt_of_lt_of_eq t.isLt N_0
  unfold kblk karr iblk
  rw [View.read_apply]
  show V m c main_arg1 _ = V m c main_arg1 _
  congr 1
  funext a
  apply Fin.ext
  match a with
  | ⟨0, _⟩ => show win0_1.index t 0 * 1 + 1 * 0 = (bOf t.val).val; rw [h0]; unfold bOf; dsimp only; omega
  | ⟨1, _⟩ => show win0_1.index t 1 * 1024 + 1 * jj.val = (at4 (kOf t.val) jj).val; rw [h1]; unfold at4 kOf; dsimp only; omega
  | ⟨2, _⟩ => show win0_1.index t 2 * 256 + 1 * d.val = d.val; rw [h2]; omega

/-- A point of the first key block leaves in the three scratch buffers the step from minus infinity, zero and zero. -/
private theorem scr_A (c : Dev nD) (t : Fin cfg0.N) (h0 : t.val % 4 = 0) (h1 : ¬t.val % 4 = 3) :
    (outsAt0 m c t.val t.isLt).2.1 = stepM (F := Ideal) (xblk m c t) (kblk m c t) (k0_pay5 (F := Ideal))
    ∧ (outsAt0 m c t.val t.isLt).2.2.1 = stepL (F := Ideal) (xblk m c t) (kblk m c t) (k0_pay5 (F := Ideal)) (k0_pay6 (F := Ideal))
    ∧ (outsAt0 m c t.val t.isLt).2.2.2 = stepA (F := Ideal) (xblk m c t) (kblk m c t) (k0_pay5 (F := Ideal)) (k0_pay7 (F := Ideal)) := by
  rw [outsAt0_A m c t h0 h1]
  dsimp only
  exact ⟨sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- A point of a later key block leaves the step from what the point before left. -/
private theorem scr_step (c : Dev nD) (t : Fin cfg0.N) (h0 : ¬t.val % 4 = 0) :
    (outsAt0 m c t.val t.isLt).2.1 = stepM (F := Ideal) (xblk m c t) (kblk m c t) (outsAt0 m c (t.val - 1) (Nat.lt_of_le_of_lt (Nat.sub_le _ _) t.isLt)).2.1
    ∧ (outsAt0 m c t.val t.isLt).2.2.1 = stepL (F := Ideal) (xblk m c t) (kblk m c t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = stepA (F := Ideal) (xblk m c t) (kblk m c t) (outsAt0 m c (t.val - 1) (Nat.lt_of_le_of_lt (Nat.sub_le _ _) t.isLt)).2.1 (outsAt0 m c (t.val - 1) (Nat.lt_of_le_of_lt (Nat.sub_le _ _) t.isLt)).2.2.2 := by
  by_cases h1 : t.val % 4 = 3
  · rw [outsAt0_C m c t h0 h1]
    dsimp only
    exact ⟨sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The carried form only depends on the values of the two sums. -/
private theorem rep_congr {cc P P' : Fin 1024 → ℝ} {Pv Pv' : Fin 1024 → Fin 256 → ℝ} {mo lo : SCol.Idx → EReal} {ao : SAcc.Idx → EReal}
    (h : Rep cc P Pv mo lo ao) (hP : ∀ r, P r = P' r) (hPv : ∀ r d, Pv r d = Pv' r d) : Rep cc P' Pv' mo lo ao := by
  intro r
  obtain ⟨a, b, e⟩ := h r
  exact ⟨a, by rw [← hP r]; exact b, fun d => by rw [← hPv r d]; exact e d⟩

/-- Within a run of four points the batch and the query block do not change. -/
private theorem bOf_pred (n : ℕ) (h0 : ¬n % 4 = 0) : bOf (n - 1) = bOf n := by
  unfold bOf; apply Fin.ext; dsimp only; omega
private theorem qOf_pred (n : ℕ) (h0 : ¬n % 4 = 0) : qOf (n - 1) = qOf n := by
  unfold qOf; apply Fin.ext; dsimp only; omega

/-- With real entries, the query block's entries are the first array's, read as real numbers; -/
private theorem xblk_real (c : Dev nD) (hX : AllReal (s := S4x4096x256) (V m c main_arg0)) (t : Fin cfg0.N) (r : Fin 1024) (d : Fin 256) :
    xblk m c t (ix3 0 r d) = ((xR m c (bOf t.val) (at4 (qOf t.val) r) d : ℝ) : EReal) := by
  rw [xblk_apply]; exact hX.eq _
/-- and the key block's the second array's. -/
private theorem kblk_real (c : Dev nD) (hX2 : AllReal (s := S4x4096x256) (V m c main_arg1)) (t : Fin cfg0.N) (jj : Fin 1024) (d : Fin 256) :
    kblk m c t (ix3 0 jj d) = ((x2R m c (bOf t.val) (at4 (kOf t.val) jj) d : ℝ) : EReal) := by
  rw [kblk_apply]; exact hX2.eq _

/-- AFTER POINT `n` the scratch buffers carry the partial sums over the key blocks up to `n % 4`, for the rows of query
    block `n / 4 % 4` of batch `n / 16`. -/
theorem scratch_rep (c : Dev nD) (hX : AllReal (s := S4x4096x256) (V m c main_arg0)) (hX2 : AllReal (s := S4x4096x256) (V m c main_arg1))
    (n : ℕ) (h : n < cfg0.N) :
    ∃ cc : Fin 1024 → ℝ, Rep cc
      (fun r => partP (xR m c) (x2R m c) (bOf n) (at4 (qOf n) r) (n % 4 + 1))
      (fun r d => partPv (xR m c) (x2R m c) (bOf n) (at4 (qOf n) r) (n % 4 + 1) d)
      (outsAt0 m c n h).2.1 (outsAt0 m c n h).2.2.1 (outsAt0 m c n h).2.2.2 := by
  induction n using Nat.strong_induction_on with
  | _ n ih =>
    have hN : n < 64 := lt_of_lt_of_eq h N_0
    have hx0 : ∀ r d, xblk m c ⟨n, h⟩ (ix3 0 r d) = ((xR m c (bOf n) (at4 (qOf n) r) d : ℝ) : EReal) :=
      fun r d => xblk_real m c hX ⟨n, h⟩ r d
    have hx1 : ∀ jj d, kblk m c ⟨n, h⟩ (ix3 0 jj d) = ((x2R m c (bOf n) (at4 (kOf n) jj) d : ℝ) : EReal) :=
      fun jj d => kblk_real m c hX2 ⟨n, h⟩ jj d
    -- the block of this point is key block `n % 4`: its terms are the ones the next partial sum adds
    have hP : ∀ r, partP (xR m c) (x2R m c) (bOf n) (at4 (qOf n) r) (n % 4)
        + blkP (fun r d => xR m c (bOf n) (at4 (qOf n) r) d) (fun jj d => x2R m c (bOf n) (at4 (kOf n) jj) d) r
        = partP (xR m c) (x2R m c) (bOf n) (at4 (qOf n) r) (n % 4 + 1) :=
      fun r => (partP_succ (xR m c) (x2R m c) (bOf n) (at4 (qOf n) r) (kOf n)).symm
    have hPv : ∀ r d, partPv (xR m c) (x2R m c) (bOf n) (at4 (qOf n) r) (n % 4) d
        + blkPv (fun r d => xR m c (bOf n) (at4 (qOf n) r) d) (fun jj d => x2R m c (bOf n) (at4 (kOf n) jj) d) r d
        = partPv (xR m c) (x2R m c) (bOf n) (at4 (qOf n) r) (n % 4 + 1) d :=
      fun r d => (partPv_succ (xR m c) (x2R m c) (bOf n) (at4 (qOf n) r) (kOf n) d).symm
    by_cases h0 : n % 4 = 0
    · obtain ⟨e0, e1, e2⟩ := scr_A m c ⟨n, h⟩ h0 (by dsimp only; omega)
      obtain ⟨cc, hcc⟩ := first_rep (xblk m c ⟨n, h⟩) (kblk m c ⟨n, h⟩)
        (fun r d => xR m c (bOf n) (at4 (qOf n) r) d) (fun jj d => x2R m c (bOf n) (at4 (kOf n) jj) d) hx0 hx1
      rw [← e0, ← e1, ← e2] at hcc
      refine ⟨cc, rep_congr hcc (fun r => ?_) (fun r d => ?_)⟩
      · rw [← hP r, h0, partP_zero, zero_add]
      · rw [← hPv r d, h0, partPv_zero, zero_add]
    · obtain ⟨cc, hcc⟩ := ih (n - 1) (by omega) (Nat.lt_of_le_of_lt (Nat.sub_le _ _) h)
      rw [bOf_pred n h0, qOf_pred n h0, show (n - 1) % 4 + 1 = n % 4 from by omega] at hcc
      obtain ⟨e0, e1, e2⟩ := scr_step m c ⟨n, h⟩ h0
      obtain ⟨c', hc'⟩ := step_rep (xblk m c ⟨n, h⟩) (kblk m c ⟨n, h⟩)
        (fun r d => xR m c (bOf n) (at4 (qOf n) r) d) (fun jj d => x2R m c (bOf n) (at4 (kOf n) jj) d) hx0 hx1
        cc _ _ _ _ _ hcc
      rw [← e0, ← e1, ← e2] at hc'
      exact ⟨c', rep_congr hc' hP hPv⟩

/-- At a point of the last key block, what the output's staging buffer holds is the output function of what the
    scratch buffers hold after that same point, the weights' block and the bias's. -/
theorem out_at_last (c : Dev nD) (t : Fin cfg0.N) (h0 : ¬t.val % 4 = 0) (h1 : t.val % 4 = 3) :
    (outsAt0 m c t.val t.isLt).1
      = outF (F := Ideal) (outsAt0 m c t.val t.isLt).2.2.2 (outsAt0 m c t.val t.isLt).2.2.1 (iblk m c 2 t) (iblk m c 3 t) := by
  rw [outsAt0_C m c t h0 h1]
  dsimp only
  rw [sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Attn

end
-- ==== Proof.Final.lean ====
/-
  The result array after the run. The output block of batch `b` and query block `q` is written back once, after the
  fourth key block, and holds the specification at its rows; the sixteen blocks cover the array. With the arguments
  unchanged this is the kernel's run.
-/
import proofs.«427663_j22179211116668_3_alg».proof.Proof.Gen.KernelIdeal.Value
import proofs.«427663_j22179211116668_3_alg».proof.Proof.Invariant
import Idealize.ShloMosaic.Lib.ValueLayout

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn
open Idealize.ShloMosaic.Pipeline (Dat)

variable (m : (ℓ : Loc nD τ sig) → Buf (Elt Ideal) ℓ) (ρ : Dev nD → PrngReg)

/-- The specification at the launch contents of the four arguments. -/
abbrev spec (c : Dev nD) : S4x4096x256.Idx → EReal :=
  G (m ((c : Thread nD τ).loc main_arg0)) (m ((c : Thread nD τ).loc main_arg1)) (m ((c : Thread nD τ).loc main_arg2)) (m ((c : Thread nD τ).loc main_arg3))

/-- All four arguments hold real numbers, on every device. -/
def ArgsReal : Prop := ∀ c : Dev nD,
  AllReal (s := S4x4096x256) (m ((c : Thread nD τ).loc main_arg0)) ∧ AllReal (s := S4x4096x256) (m ((c : Thread nD τ).loc main_arg1))
    ∧ AllReal (s := S256x256) (m ((c : Thread nD τ).loc main_arg2)) ∧ AllReal (s := S256) (m ((c : Thread nD τ).loc main_arg3))

/-! ## Where the blocks sit -/

/-- The output's block at point `t` is batch `t / 16`, query block `t / 4 % 4`, all the features. -/
private theorem outBlockAt : ∀ t : Fin cfg0.N, win0_4.index t (0 : Fin 3) = t.val / 16 ∧ win0_4.index t (1 : Fin 3) = t.val / 4 % 4
    ∧ win0_4.index t (2 : Fin 3) = 0 :=
  (by decide +kernel : ∀ t : Fin grid0.N, _)

/-- The weights' window and the bias's have one block each, the whole array, at every point. -/
private theorem wholeBlocksAt : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- An index of the result array is in point `t`'s block iff each coordinate is in the block's range on its axis. -/
private theorem mem_outBlock (t : Fin cfg0.N) (i : S4x4096x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v2).slice (win0_4.rect t)).set ↔ _
  rw [View.set_slice_whole, Rect.mem_set_unit]
  exact Iff.rfl

/-! ## The weights and the bias as the kernel reads them -/

/-- Before the kernel runs the weights are transposed, -/
private theorem weights_transposed (c : Dev nD) : (V m c main_v0 : S256x256.Idx → EReal)
    = transpose S256x256 [1, 0] (m ((c : Thread nD τ).loc main_arg2) : S256x256.Idx → EReal) transposes_S256x256_S256x256_1_0 := by
  dsimp only [Gen.V, Gen.hostOps0]; after_results

/-- and the bias is laid out as one row. -/
private theorem bias_row (c : Dev nD) : (V m c main_v1 : S1x256.Idx → EReal)
    = shapeCast S1x256 (m ((c : Thread nD τ).loc main_arg3) : S256.Idx → EReal) shapeCasts_S256_S1x256 := by
  dsimp only [Gen.V, Gen.hostOps0]; after_results; rfl

/-- So the weights' block at `(d, e)` is `W (e, d)`, -/
private theorem weights_block_apply (c : Dev nD) (t : Fin cfg0.N) (d e : Fin 256) :
    (iblk m c 2 t : Vec Ideal S256x256 .f32) (ix2 d e) = (m ((c : Thread nD τ).loc main_arg2) : S256x256.Idx → EReal) (ix2 e d) := by
  obtain ⟨e0, e1, -, -⟩ := wholeBlocksAt t
  have hemb : ((cfg0.win 2).blk t).view.emb (ix2 d e) = (ix2 d e : S256x256.Idx) := by
    funext a; apply Fin.ext
    match a with
    | ⟨0, _⟩ => show win0_2.index t (0 : Fin 2) * 256 + 1 * d.val = d.val; omega
    | ⟨1, _⟩ => show win0_2.index t (1 : Fin 2) * 256 + 1 * e.val = e.val; omega
  unfold iblk
  rw [View.read_apply]
  show V m c main_v0 (((cfg0.win 2).blk t).view.emb (ix2 d e)) = _
  rw [hemb, weights_transposed]
  exact transpose_ix2_apply _ _ d e

/-- and the bias's block at `(0, e)` is `bias e`. -/
private theorem bias_block_apply (c : Dev nD) (t : Fin cfg0.N) (e : Fin 256) :
    (iblk m c 3 t : Vec Ideal S1x256 .f32) (ix2 0 e) = (m ((c : Thread nD τ).loc main_arg3) : S256.Idx → EReal) (ix1 e) := by
  obtain ⟨-, -, e2, e3⟩ := wholeBlocksAt t
  have hemb : ((cfg0.win 3).blk t).view.emb (ix2 0 e) = (ix2 0 e : S1x256.Idx) := by
    funext a; apply Fin.ext
    match a with
    | ⟨0, _⟩ => show win0_3.index t (0 : Fin 2) * 1 + 1 * 0 = 0; omega
    | ⟨1, _⟩ => show win0_3.index t (1 : Fin 2) * 256 + 1 * e.val = e.val; omega
  unfold iblk
  rw [View.read_apply]
  show V m c main_v1 (((cfg0.win 3).blk t).view.emb (ix2 0 e)) = _
  rw [hemb, bias_row]
  exact shapeCast_a_1a_apply _ _ 0 e

/-! ## The output of the carried sums over all four key blocks -/

/-- When the carried sums of query block `q` of batch `b` run over all four key blocks, they are the sums over the 4096
    keys, so their quotient is the softmax-weighted average and the linear layer on it is the specification's entry at
    row `1024 q + r`. The weights and the bias enter as real numbers: `w (d, e) = W (e, d)`. -/
private theorem out_is_spec (X X2 : S4x4096x256.Idx → EReal) (W : S256x256.Idx → EReal) (B : S256.Idx → EReal)
    (hW : AllReal (s := S256x256) W) (hB : AllReal (s := S256) B) (b q : Fin 4) (cc : Fin 1024 → ℝ)
    (mo lo : Vec Ideal S1024x1 .f32) (ao : Vec Ideal S1024x256 .f32)
    (h : Rep cc (fun r => partP (re3 X) (re3 X2) b (at4 q r) 4) (fun r d => partPv (re3 X) (re3 X2) b (at4 q r) 4 d) mo lo ao)
    (w : Vec Ideal S256x256 .f32) (bb : Vec Ideal S1x256 .f32)
    (hw : ∀ d e, w (ix2 d e) = W (ix2 e d)) (hb : ∀ e, bb (ix2 0 e) = B (ix1 e)) (r : Fin 1024) (e : Fin 256) :
    outF (F := Ideal) ao lo w bb (ix3 0 r e) = G X X2 W B (ix3 b (at4 q r) e) := by
  rw [out_rep cc _ _ mo lo ao h (fun r => partP_pos _ _ _ _ 4 (by decide)) w bb (fun d e => re2 W e d) (re1 B)
    (fun d e => (hw d e).trans (hW.eq _)) (fun e => (hb e).trans (hB.eq _)) r e]
  show _ = ((outR (re3 X) (re3 X2) (re2 W) (re1 B) b (at4 q r) e : ℝ) : EReal)
  unfold outR softavg
  simp only [partP_four, partPv_four]

/-! ## The write-backs and the result array -/

/-- WHAT A WRITE-BACK WRITES: the specification, read through the block. -/
theorem flushed_eq (hfin : ArgsReal m) (c : Dev nD) (t : Fin cfg0.N) (hf : (cfg0.win 4).flush t = true) :
    (dats m 0 c).flushed 4 t = ((cfg0.win 4).blk t).view.read (Elt Ideal) (spec m c) := by
  have hN : cfg0.N = 64 := N_0
  have ht : t.val < 64 := lt_of_lt_of_eq t.isLt hN
  have h3 : t.val % 4 = 3 := (flush0_4 t).mp hf
  have h0 : ¬t.val % 4 = 0 := by omega
  obtain ⟨hX, hX2, hW, hB⟩ := hfin c
  -- after the fourth key block the scratch buffers carry the sums over all four
  obtain ⟨cc, hrep⟩ := scratch_rep m c (by rw [V_main_arg0]; exact hX) (by rw [V_main_arg1]; exact hX2) t.val t.isLt
  rw [show t.val % 4 + 1 = 4 from by omega] at hrep
  obtain ⟨i0, i1, i2⟩ := outBlockAt t
  rw [Value.flushed4, out_at_last m c t h0 h3]
  funext y
  have hy0 : (y 0).val < 1 := (y 0).isLt
  have hy1 : (y 1).val < 1024 := (y 1).isLt
  have hy2 : (y 2).val < 256 := (y 2).isLt
  -- the block tiles the array exactly: entry `y` of what is written is entry `(0, y 1, y 2)` of the staging buffer,
  have hin : (cfg0.win 4).xinj (grid0.coords t) y = (ix3 0 ⟨(y 1).val, hy1⟩ ⟨(y 2).val, hy2⟩ : S1x1024x256.Idx) := by
    funext a; apply Fin.ext
    match a with
    | ⟨0, _⟩ => show (y 0).val = 0; omega
    | ⟨1, _⟩ => rfl
    | ⟨2, _⟩ => rfl
  -- and lands at batch `t / 16`, row `1024 (t / 4 % 4) + y 1`, feature `y 2` of the result array
  have hemb : ((cfg0.win 4).blk t).view.emb y
      = (ix3 (bOf t.val) (at4 (qOf t.val) ⟨(y 1).val, hy1⟩) ⟨(y 2).val, hy2⟩ : S4x4096x256.Idx) := by
    funext a; apply Fin.ext
    match a with
    | ⟨0, _⟩ => show win0_4.index t (0 : Fin 3) * 1 + 1 * (y 0).val = t.val / 16 % 4; omega
    | ⟨1, _⟩ => show win0_4.index t (1 : Fin 3) * 1024 + 1 * (y 1).val = 1024 * (t.val / 4 % 4) + (y 1).val; omega
    | ⟨2, _⟩ => show win0_4.index t (2 : Fin 3) * 256 + 1 * (y 2).val = (y 2).val; omega
  have hs : spec m c = G (V m c main_arg0) (V m c main_arg1) (m ((c : Thread nD τ).loc main_arg2)) (m ((c : Thread nD τ).loc main_arg3)) := by
    rw [V_main_arg0, V_main_arg1]
  show outF (F := Ideal) (outsAt0 m c t.val t.isLt).2.2.2 (outsAt0 m c t.val t.isLt).2.2.1 (iblk m c 2 t) (iblk m c 3 t)
      ((cfg0.win 4).xinj (grid0.coords t) y) = spec m c (((cfg0.win 4).blk t).view.emb y)
  rw [hin, hemb, hs]
  exact out_is_spec (V m c main_arg0) (V m c main_arg1) (m ((c : Thread nD τ).loc main_arg2)) (m ((c : Thread nD τ).loc main_arg3))
    hW hB (bOf t.val) (qOf t.val) cc (outsAt0 m c t.val t.isLt).2.1 (outsAt0 m c t.val t.isLt).2.2.1 (outsAt0 m c t.val t.isLt).2.2.2 hrep
    (iblk m c 2 t) (iblk m c 3 t) (weights_block_apply m c t) (bias_block_apply m c t) ⟨(y 1).val, hy1⟩ ⟨(y 2).val, hy2⟩

/-- The written-back blocks cover the result array. -/
theorem cover (i : S4x4096x256.Idx) : ∃ t : Fin cfg0.N, (cfg0.win 4).flush t = true ∧ i ∈ ((cfg0.win 4).blk t).view.set := by
  have hN : cfg0.N = 64 := N_0
  have hi0 : (i 0).val < 4 := (i 0).isLt
  have hi1 : (i 1).val < 4096 := (i 1).isLt
  have hi2 : (i 2).val < 256 := (i 2).isLt
  -- the last key block's point of batch `i 0` and of the query block that holds row `i 1`
  let t : Fin cfg0.N := ⟨16 * (i 0).val + 4 * ((i 1).val / 1024) + 3, by rw [hN]; omega⟩
  have ht : t.val = 16 * (i 0).val + 4 * ((i 1).val / 1024) + 3 := rfl
  obtain ⟨e0, e1, e2⟩ := outBlockAt t
  refine ⟨t, (flush0_4 t).mpr (by omega), ?_⟩
  rw [mem_outBlock]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- So the result array ends at the specification. -/
theorem final (hfin : ArgsReal m) (c : Dev nD) : (dats m 0 c).arrAt 4 cfg0.N = spec m c :=
  (dats m 0 c).arrAt_eq_of_cover 4 (spec m c) (fun t hf => flushed_eq m hfin c t hf) (cover)

/-- The run of the idealized kernel from arguments that are real numbers. -/
theorem run (hfin : ArgsReal m) : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hfin c), (h c).2⟩) (Cert.KernelIdeal.Value.run_blocks (F := Ideal) m ρ)

end Cert.KernelIdeal.Attn

end
-- ==== Proof.RefValue.lean ====
/-
  The reference's result is the specification: its scores are the same sums, its row maximum is a real number, and
  its softmax weights, whatever real number is subtracted inside the exponentials, average the keys' rows to the
  unshifted quotient; the linear layer is the same sum over the features.
-/
import proofs.«427663_j22179211116668_3_alg».proof.Proof.Gen.ReferenceIdeal.Read
import proofs.«427663_j22179211116668_3_alg».proof.Proof.Spec
import proofs.«427663_j22179211116668_3_alg».proof.Proof.Softmax
import proofs.«427663_j22179211116668_3_alg».proof.Proof.LibRealSums
import Mathlib.Data.Finset.Fold

noncomputable section

open scoped BigOperators
open Idealize.ShloMosaic Idealize.ShloMosaic.TcCoe Idealize.SL.Sem Idealize.ShloMosaic.ValueIdx

namespace Cert.ReferenceIdeal.AttnRef

open Cert.ReferenceIdeal Cert.ReferenceIdeal.Gen Cert.Attn Cert.ReferenceIdeal.Read
open Idealize.ShloMosaic.RealSums

/-- Started from −∞, the maximum of real numbers over a non-empty finite set is a real number: it is below +∞ because
    every term is, and above −∞ because one term is. -/
private theorem fold_max_bot_real {ι : Type*} (s : Finset ι) (hs : s.Nonempty) (f : ι → EReal)
    (hf : ∀ i ∈ s, ∃ r : ℝ, f i = (r : EReal)) : ∃ M : ℝ, s.fold max ⊥ f = (M : EReal) := by
  have htop : s.fold max ⊥ f ≠ ⊤ := by
    refine ne_of_lt ((Finset.fold_max_lt _).2 ⟨bot_lt_top, fun i hi => ?_⟩)
    obtain ⟨r, hr⟩ := hf i hi
    rw [hr]; exact EReal.coe_lt_top r
  have hbot : s.fold max ⊥ f ≠ ⊥ := by
    obtain ⟨i, hi⟩ := hs
    obtain ⟨r, hr⟩ := hf i hi
    refine ne_of_gt ((Finset.lt_fold_max _).2 (Or.inr ⟨i, hi, ?_⟩))
    rw [hr]; exact EReal.bot_lt_coe r
  exact ⟨(s.fold max ⊥ f).toReal, (EReal.coe_toReal htop hbot).symm⟩

/-! ## The stages, each at an index -/

/-- The scores: entry (b, n, j) of the first product is the real sum over the features. -/
private theorem scores_eq (x0 x1 : (⟨S4x4096x256, .f32⟩ : BufTy).Contents (Elt Ideal))
    (h0 : AllReal (s := S4x4096x256) x0) (h1 : AllReal (s := S4x4096x256) x1) (b : Fin 4) (n j : Fin 4096) :
    val_main_v0 (F := Ideal) x0 x1 (ix3 b n j) = ((score (re3 x0) (re3 x1) b n j : ℝ) : EReal) := by
  rw [val_main_v0_apply]
  unfold score
  rw [coe_sum]
  refine Finset.sum_congr rfl fun d _ => ?_
  have el : lidx_main_v0 (ix3 b n j) d = ix3 b n d :=
    funext fun a => Fin.ext (by match a with | ⟨0, _⟩ => rfl | ⟨1, _⟩ => rfl | ⟨2, _⟩ => rfl)
  have er : ridx_main_v0 (ix3 b n j) d = ix3 b j d :=
    funext fun a => Fin.ext (by match a with | ⟨0, _⟩ => rfl | ⟨1, _⟩ => rfl | ⟨2, _⟩ => rfl)
  rw [el, er, EReal.coe_mul]
  exact congrArg₂ (· * ·) (h0.eq (ix3 b n d)) (h1.eq (ix3 b j d))

/-- Every score is a real number. -/
private theorem scores_real (x0 x1 : (⟨S4x4096x256, .f32⟩ : BufTy).Contents (Elt Ideal))
    (h0 : AllReal (s := S4x4096x256) x0) (h1 : AllReal (s := S4x4096x256) x1) (i : S4x4096x4096.Idx) :
    ∃ r : ℝ, val_main_v0 (F := Ideal) x0 x1 i = (r : EReal) := by
  rw [eq_ix3 i]
  exact ⟨_, scores_eq x0 x1 h0 h1 _ _ _⟩

/-- The row maximum, taken from −∞ over the 4096 keys and once more against −∞, is a real number. -/
private theorem rowmax_real (x0 x1 : (⟨S4x4096x256, .f32⟩ : BufTy).Contents (Elt Ideal))
    (h0 : AllReal (s := S4x4096x256) x0) (h1 : AllReal (s := S4x4096x256) x1) (b : Fin 4) (n : Fin 4096) :
    ∃ M : ℝ, val_main_v3 (F := Ideal) x0 x1 (ix2 b n) = (M : EReal) := by
  have hr : S4x4096x4096.Reduces [2] S4x4096 := by decide
  have hbot : Ideal.ofBits .f32 0xFF800000#32 = (⊥ : EReal) := by simp [Ideal.ofBits, Ideal.ieee]
  obtain ⟨M, hM⟩ := fold_max_bot_real (Finset.univ : Finset (Fin (S4x4096x4096.size 2))) ⟨⟨0, by decide⟩, Finset.mem_univ _⟩
    (val_main_v0 (F := Ideal) x0 x1 ∘ hr.lift (ix2 b n)) (fun k _ => scores_real x0 x1 h0 h1 _)
  refine ⟨M, ?_⟩
  rw [val_main_v3_apply, val_main_v2_apply, val_main_cst_0_apply]
  unfold val_main_v1
  rw [Host.reduce_eq_fold_single FloatOps.maximumf _ _ reducesTo_S4x4096x4096_S4x4096_d2 hr h_S_, val_main_cst_apply]
  show max (Ideal.ofBits .f32 0xFF800000#32) (Finset.fold max (Ideal.ofBits .f32 0xFF800000#32) _ Finset.univ) = _
  rw [hbot, hM]
  exact max_eq_right bot_le

/-- The maximum broadcast along the keys: entry (b, n, j) is the row's maximum. -/
private theorem rowmax_bcast (x0 x1 : (⟨S4x4096x256, .f32⟩ : BufTy).Contents (Elt Ideal)) (b : Fin 4) (n j : Fin 4096) :
    val_main_v5 (F := Ideal) x0 x1 (ix3 b n j) = val_main_v3 (F := Ideal) x0 x1 (ix2 b n) := by
  rw [val_main_v5_apply, val_main_v4_apply]
  exact congrArg _ (funext fun a => Fin.ext (by match a with | ⟨0, _⟩ => rfl | ⟨1, _⟩ => rfl))

/-- The exponentials: with the row's maximum the real number M, entry (b, n, j) is exp (score − M). -/
private theorem expo_eq (x0 x1 : (⟨S4x4096x256, .f32⟩ : BufTy).Contents (Elt Ideal))
    (h0 : AllReal (s := S4x4096x256) x0) (h1 : AllReal (s := S4x4096x256) x1) (b : Fin 4) (n j : Fin 4096) (M : ℝ)
    (hM : val_main_v3 (F := Ideal) x0 x1 (ix2 b n) = (M : EReal)) :
    val_main_v7 (F := Ideal) x0 x1 (ix3 b n j) = ((Real.exp (score (re3 x0) (re3 x1) b n j - M) : ℝ) : EReal) := by
  rw [val_main_v7_apply, val_main_v6_apply, scores_eq x0 x1 h0 h1, rowmax_bcast, hM, Ideal.hostUnary_exp_def,
    Ideal.subf_def, ← EReal.coe_sub, Ideal.exp_coe]

/-- The row's sum of exponentials, from zero, is the real sum. -/
private theorem expsum_eq (x0 x1 : (⟨S4x4096x256, .f32⟩ : BufTy).Contents (Elt Ideal))
    (h0 : AllReal (s := S4x4096x256) x0) (h1 : AllReal (s := S4x4096x256) x1) (b : Fin 4) (n : Fin 4096) (M : ℝ)
    (hM : val_main_v3 (F := Ideal) x0 x1 (ix2 b n) = (M : EReal)) :
    val_main_v8 (F := Ideal) x0 x1 (ix2 b n)
      = ((∑ j : Fin 4096, Real.exp (score (re3 x0) (re3 x1) b n j - M) : ℝ) : EReal) := by
  rw [val_main_v8_apply, val_main_cst_1_apply, Ideal.ofBits_def, Ideal.ofBits_zero_f32, zero_add, coe_sum]
  refine Finset.sum_congr rfl fun j _ => ?_
  have e : idx_main_v8 (ix2 b n) j = ix3 b n j :=
    funext fun a => Fin.ext (by match a with | ⟨0, _⟩ => rfl | ⟨1, _⟩ => rfl | ⟨2, _⟩ => rfl)
  rw [e]
  exact expo_eq x0 x1 h0 h1 b n j M hM

/-- That sum broadcast along the keys. -/
private theorem expsum_bcast (x0 x1 : (⟨S4x4096x256, .f32⟩ : BufTy).Contents (Elt Ideal)) (b : Fin 4) (n j : Fin 4096) :
    val_main_v10 (F := Ideal) x0 x1 (ix3 b n j) = val_main_v8 (F := Ideal) x0 x1 (ix2 b n) := by
  rw [val_main_v10_apply, val_main_v9_apply]
  exact congrArg _ (funext fun a => Fin.ext (by match a with | ⟨0, _⟩ => rfl | ⟨1, _⟩ => rfl))

/-- The softmax weights: the sum of exponentials is positive, so the quotient is the real quotient. -/
private theorem weight_eq (x0 x1 : (⟨S4x4096x256, .f32⟩ : BufTy).Contents (Elt Ideal))
    (h0 : AllReal (s := S4x4096x256) x0) (h1 : AllReal (s := S4x4096x256) x1) (b : Fin 4) (n j : Fin 4096) (M : ℝ)
    (hM : val_main_v3 (F := Ideal) x0 x1 (ix2 b n) = (M : EReal)) :
    val_main_v11 (F := Ideal) x0 x1 (ix3 b n j)
      = ((Real.exp (score (re3 x0) (re3 x1) b n j - M)
          / ∑ j' : Fin 4096, Real.exp (score (re3 x0) (re3 x1) b n j' - M) : ℝ) : EReal) := by
  have hZ : (∑ j' : Fin 4096, Real.exp (score (re3 x0) (re3 x1) b n j' - M)) ≠ 0 :=
    (Finset.sum_pos (fun j' _ => Real.exp_pos _) ⟨0, Finset.mem_univ _⟩).ne'
  rw [val_main_v11_apply, expo_eq x0 x1 h0 h1 b n j M hM, expsum_bcast, expsum_eq x0 x1 h0 h1 b n M hM,
    Ideal.hostDivf_def, Ideal.div_coe hZ, ← EReal.coe_mul, mul_one_div]

/-- The weighted average of the rows of the keys: the shift by the maximum drops out. -/
private theorem avg_eq (x0 x1 : (⟨S4x4096x256, .f32⟩ : BufTy).Contents (Elt Ideal))
    (h0 : AllReal (s := S4x4096x256) x0) (h1 : AllReal (s := S4x4096x256) x1) (b : Fin 4) (n : Fin 4096) (d : Fin 256) :
    val_main_v12 (F := Ideal) x0 x1 (ix3 b n d) = ((softavg (re3 x0) (re3 x1) b n d : ℝ) : EReal) := by
  obtain ⟨M, hM⟩ := rowmax_real x0 x1 h0 h1 b n
  refine Eq.trans ?_ (congrArg (fun r : ℝ => (r : EReal))
    (avg_shift Finset.univ (fun j : Fin 4096 => score (re3 x0) (re3 x1) b n j) (fun j : Fin 4096 => re3 x1 b j d) M))
  rw [val_main_v12_apply, coe_sum]
  refine Finset.sum_congr rfl fun j _ => ?_
  have el : lidx_main_v12 (ix3 b n d) j = ix3 b n j :=
    funext fun a => Fin.ext (by match a with | ⟨0, _⟩ => rfl | ⟨1, _⟩ => rfl | ⟨2, _⟩ => rfl)
  have er : ridx_main_v12 (ix3 b n d) j = ix3 b j d :=
    funext fun a => Fin.ext (by match a with | ⟨0, _⟩ => rfl | ⟨1, _⟩ => rfl | ⟨2, _⟩ => rfl)
  rw [el, er, weight_eq x0 x1 h0 h1 b n j M hM, EReal.coe_mul]
  exact congrArg _ (h1.eq (ix3 b j d))

/-- The linear layer's product: entry (b, n, e) is the real sum over the features. -/
private theorem linear_eq (x0 x1 : (⟨S4x4096x256, .f32⟩ : BufTy).Contents (Elt Ideal)) (x2 : (⟨S256x256, .f32⟩ : BufTy).Contents (Elt Ideal))
    (h0 : AllReal (s := S4x4096x256) x0) (h1 : AllReal (s := S4x4096x256) x1) (h2 : AllReal (s := S256x256) x2)
    (b : Fin 4) (n : Fin 4096) (e : Fin 256) :
    val_main_v13 (F := Ideal) x0 x1 x2 (ix3 b n e)
      = ((∑ d : Fin 256, softavg (re3 x0) (re3 x1) b n d * re2 x2 e d : ℝ) : EReal) := by
  rw [val_main_v13_apply, coe_sum]
  refine Finset.sum_congr rfl fun d _ => ?_
  have el : lidx_main_v13 (ix3 b n e) d = ix3 b n d :=
    funext fun a => Fin.ext (by match a with | ⟨0, _⟩ => rfl | ⟨1, _⟩ => rfl | ⟨2, _⟩ => rfl)
  have er : ridx_main_v13 (ix3 b n e) d = ix2 e d :=
    funext fun a => Fin.ext (by match a with | ⟨0, _⟩ => rfl | ⟨1, _⟩ => rfl)
  rw [el, er, avg_eq x0 x1 h0 h1, EReal.coe_mul]
  exact congrArg _ (h2.eq (ix2 e d))

theorem ref_eq (x0 x1 : (⟨S4x4096x256, .f32⟩ : BufTy).Contents (Elt Ideal)) (x2 : (⟨S256x256, .f32⟩ : BufTy).Contents (Elt Ideal))
    (x3 : (⟨S256, .f32⟩ : BufTy).Contents (Elt Ideal))
    (h0 : AllReal (s := S4x4096x256) x0) (h1 : AllReal (s := S4x4096x256) x1) (h2 : AllReal (s := S256x256) x2) (h3 : AllReal (s := S256) x3) :
    Cert.ReferenceIdeal.Read.val_main_v16 (F := Ideal) x0 x1 x2 x3 = G x0 x1 x2 x3 := by
  funext i
  obtain ⟨b, n, e, rfl⟩ : ∃ (b : Fin 4) (n : Fin 4096) (e : Fin 256), i = ix3 b n e := ⟨i 0, i 1, i 2, eq_ix3 i⟩
  have eb : idx_main_v14 (idx_main_v15 (ix3 b n e)) = ix1 e :=
    funext fun a => Fin.ext (by match a with | ⟨0, _⟩ => rfl)
  rw [val_main_v16_apply, linear_eq x0 x1 x2 h0 h1 h2, val_main_v15_apply, val_main_v14_apply, eb, h3.eq (ix1 e),
    Ideal.addf_def, ← EReal.coe_add]
  rfl

end Cert.ReferenceIdeal.AttnRef

end
-- ==== Proof.Finite.lean ====
/-
  The precondition says every entry of the four arguments is smaller in absolute value than plus infinity; an extended
  real with that property is a real number.
-/
import proofs.«427663_j22179211116668_3_alg».proof.Pre_finite_inputs
import proofs.«427663_j22179211116668_3_alg».proof.Proof.Spec
import Idealize.ShloMosaic.Lib.ReduceAll

noncomputable section

open scoped BigOperators
open Idealize.ShloMosaic Idealize.ShloMosaic.TcCoe Idealize.SL.Sem Idealize.ShloMosaic.ValueIdx

namespace Cert.Pre_finite_inputs.AttnFin

open Cert.Pre_finite_inputs Cert.Attn

/-- An extended real whose absolute value, `max x (-x)`, compares below plus infinity is a real number: at the two
    infinities the absolute value is plus infinity itself, which is not below it. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- The shape of a scalar has one index. -/
private instance : Subsingleton S_.Idx := ⟨fun a b => funext fun d => d.elim0⟩

/-- One argument, of any shape: if the conjunction over all entries of "the absolute value is below plus infinity"
    is 1, every entry is a real number. -/
private theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf x) (broadcastInDim s ![] hb (constant S_ .f32 0x7F800000#32))) init hr hu ix0 = 1#1) :
    AllReal (s := s) x := by
  intro i
  exact real_of_abs_lt_inf (x i) (Host.reduce_andi_all _ _ hr hu ix0 h i)

theorem allReal_of_pre [Cert.Pre_finite_inputs.Facts] (a0 a1 : FVec Ideal S4x4096x256 .f32) (a2 : FVec Ideal S256x256 .f32) (a3 : FVec Ideal S256 .f32)
    (h : Cert.Pre_finite_inputs.fn (F := Ideal) a0 a1 a2 a3 = fun _ => 1#1) :
    AllReal (s := S4x4096x256) a0 ∧ AllReal (s := S4x4096x256) a1 ∧ AllReal (s := S256x256) a2 ∧ AllReal (s := S256) a3 := by
  have h0 := congrFun h ix0
  dsimp only [fn, fn_part1, andi] at h0
  -- the result is the conjunction of the four arguments' conjunctions, nested to the left
  obtain ⟨h012, h3⟩ := IntOp.andi_eq_one.1 h0
  obtain ⟨h01, h2⟩ := IntOp.andi_eq_one.1 h012
  obtain ⟨h0', h1⟩ := IntOp.andi_eq_one.1 h01
  exact ⟨allReal_of_all a0 _ _ _ _ h0', allReal_of_all a1 _ _ _ _ h1, allReal_of_all a2 _ _ _ _ h2,
    allReal_of_all a3 _ _ _ _ h3⟩

end Cert.Pre_finite_inputs.AttnFin

end
-- ==== Proof.lean ====
/-
  An attention layer with a linear layer on its output, over the extended reals. For a batch `b`, a query row `n` and
  an output feature `e`, both programs compute

      (∑ d, avg b n d * W e d) + bias e,      avg b n d = (∑ j, exp (s b n j) * x2 b j d) / (∑ j, exp (s b n j)),

  with `s b n j = ∑ d, x b n d * x2 b j d` the scores of the queries `x` against the keys `x2`, which are also the values.

  The reference takes the softmax over all 4096 keys at once, subtracting the row's maximum inside the exponentials.
  The kernel walks the keys in four blocks of 1024 for each block of 1024 query rows: it keeps a running maximum, a
  running sum of exponentials and a running exponential-weighted sum of the keys' rows, rescales the two sums by
  `exp (old maximum - new maximum)` at each block, and after the fourth block divides, multiplies by the transposed
  weights and adds the bias. Its scores are three products, of the blocks split into a leading part and a remainder;
  with exact arithmetic every remainder is `v - v`, which is zero for a real number `v`, so two of the products vanish.

  Over the real numbers a softmax-weighted average does not depend on what is subtracted inside the exponentials, so
  neither maximum has to be identified: it is enough that each is a real number. That, the vanishing remainders and
  moving a factor across a sum all need the entries to be real numbers, which is what the precondition gives.
-/
import proofs.«427663_j22179211116668_3_alg».proof.Defs
import proofs.«427663_j22179211116668_3_alg».proof.Proof.Gen.Kernel
import proofs.«427663_j22179211116668_3_alg».proof.Proof.Gen.Kernel.Skeleton
import proofs.«427663_j22179211116668_3_alg».proof.Proof.Gen.Kernel.Launch
import proofs.«427663_j22179211116668_3_alg».proof.Proof.Gen.Kernel.Points
import proofs.«427663_j22179211116668_3_alg».proof.Proof.Gen.Kernel.Frame
import proofs.«427663_j22179211116668_3_alg».proof.Proof.Gen.KernelIdeal
import proofs.«427663_j22179211116668_3_alg».proof.Proof.Gen.KernelIdeal.Skeleton
import proofs.«427663_j22179211116668_3_alg».proof.Proof.Gen.KernelIdeal.Launch
import proofs.«427663_j22179211116668_3_alg».proof.Proof.Gen.KernelIdeal.Points
import proofs.«427663_j22179211116668_3_alg».proof.Proof.Gen.KernelIdeal.Frame
import proofs.«427663_j22179211116668_3_alg».proof.Proof.Gen.ReferenceIdeal
import proofs.«427663_j22179211116668_3_alg».proof.Proof.Gen.Pre_finite_inputs
import proofs.«427663_j22179211116668_3_alg».proof.Proof.Gen.KernelIdeal.Value
import proofs.«427663_j22179211116668_3_alg».proof.Proof.Gen.ReferenceIdeal.Run
import proofs.«427663_j22179211116668_3_alg».proof.Proof.Gen.ReferenceIdeal.Read
import proofs.«427663_j22179211116668_3_alg».proof.Proof.Final
import proofs.«427663_j22179211116668_3_alg».proof.Proof.RefValue
import proofs.«427663_j22179211116668_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: narrowing a value to the shorter float format and widening it back is the
    identity on the extended reals (and a rounding on the words), once for the query block and once for the key block. -/
theorem preserves : Cert.preserves_Kernel_KernelIdeal :=
  ⟨IdealRules.truncf_extf.statement _ .f32 .bf16, IdealRules.truncf_extf.statement _ .f32 .bf16⟩

/-- Both runs end at the specification of the arguments, which agree and are real numbers by the precondition. -/
theorem algebraic : Cert.algebraic_KernelIdeal_ReferenceIdeal := by
  intro m ρ m' ρ' hpre hagree
  have hfin : Cert.KernelIdeal.Attn.ArgsReal m := fun c =>
    Cert.Pre_finite_inputs.AttnFin.allReal_of_pre _ _ _ _ (hpre c)
  refine ⟨fun c => Cert.KernelIdeal.Attn.spec m c, Cert.KernelIdeal.Attn.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2]
  exact Cert.ReferenceIdeal.AttnRef.ref_eq _ _ _ _ (hfin c).1 (hfin c).2.1 (hfin c).2.2.1 (hfin c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
